-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x20000 : Shape := ⟨2, ![128, 20000]⟩
abbrev S20000x4096 : Shape := ⟨2, ![20000, 4096]⟩
abbrev S4096 : Shape := ⟨1, ![4096]⟩
abbrev S4096x1 : Shape := ⟨2, ![4096, 1]⟩
abbrev S1 : Shape := ⟨1, ![1]⟩
abbrev S_ : Shape := ⟨0, ![]⟩

class Facts : Prop where
  bcast_S_S128x20000 : S_.BroadcastsInDim S128x20000 (![] : Fin 0 → Fin S128x20000.rank)
  reducesTo_S128x20000_S_d0_1 : S128x20000.ReducesTo [0, 1] S_
  h_S_ : 0 < S_.numel
  bcast_S_S20000x4096 : S_.BroadcastsInDim S20000x4096 (![] : Fin 0 → Fin S20000x4096.rank)
  reducesTo_S20000x4096_S_d0_1 : S20000x4096.ReducesTo [0, 1] S_
  bcast_S_S4096 : S_.BroadcastsInDim S4096 (![] : Fin 0 → Fin S4096.rank)
  reducesTo_S4096_S_d0 : S4096.ReducesTo [0] S_
  bcast_S_S4096x1 : S_.BroadcastsInDim S4096x1 (![] : Fin 0 → Fin S4096x1.rank)
  reducesTo_S4096x1_S_d0_1 : S4096x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S4096 .f32) (main_arg8 : FVec F S4096x1 .f32) (main_arg9 : FVec F S1 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x1 .f32 := Host.absf main_arg8
  let main_cst_14 : FVec F S_ .f32 := constant S_ .f32 0x7F800000#32
  let main_v40 : FVec F S4096x1 .f32 := broadcastInDim S4096x1 ![] bcast_S_S4096x1 main_cst_14
  let main_v41 : IVec S4096x1 1 := cmpf .olt main_v39 main_v40
  let main_c_15 : IVec S_ 1 := constantI S_ 1 1#1
  let main_v42 : IVec S_ 1 := (fun x v => Host.reduce IntOp.andi x v reducesTo_S4096x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S20000x4096 .f32) (main_arg5 : FVec F S4096 .f32) (main_arg6 : FVec F S4096 .f32) (main_arg7 : FVec F S4096 .f32) (main_arg8 : FVec F S4096x1 .f32) (main_arg9 : FVec F S1 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S20000x4096 .f32 := Host.absf main_arg4
  let main_cst_6 : FVec F S_ .f32 := constant S_ .f32 0x7F800000#32
  let main_v20 : FVec F S20000x4096 .f32 := broadcastInDim S20000x4096 ![] bcast_S_S20000x4096 main_cst_6
  let main_v21 : IVec S20000x4096 1 := cmpf .olt main_v19 main_v20
  let main_c_7 : IVec S_ 1 := constantI S_ 1 1#1
  let main_v22 : IVec S_ 1 := (fun x v => Host.reduce IntOp.andi x v reducesTo_S20000x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S128x20000 .f32) (main_arg1 : FVec F S20000x4096 .f32) (main_arg2 : FVec F S20000x4096 .f32) (main_arg3 : FVec F S4096 .f32) (main_arg4 : FVec F S20000x4096 .f32) (main_arg5 : FVec F S4096 .f32) (main_arg6 : FVec F S4096 .f32) (main_arg7 : FVec F S4096 .f32) (main_arg8 : FVec F S4096x1 .f32) (main_arg9 : FVec F S1 .f32) : IVec S_ 1 :=
  let main_v0 : FVec F S128x20000 .f32 := Host.absf main_arg0
  let main_cst : FVec F S_ .f32 := constant S_ .f32 0x7F800000#32
  let main_v1 : FVec F S128x20000 .f32 := broadcastInDim S128x20000 ![] bcast_S_S128x20000 main_cst
  let main_v2 : IVec S128x20000 1 := cmpf .olt main_v0 main_v1
  let main_c : IVec S_ 1 := constantI S_ 1 1#1
  let main_v3 : IVec S_ 1 := (fun x v => Host.reduce IntOp.andi x v reducesTo_S128x20000_S_d0_1 h_S_) main_v2 main_c
  let main_v4 : FVec F S20000x4096 .f32 := Host.absf main_arg1
  let main_cst_0 : FVec F S_ .f32 := constant S_ .f32 0x7F800000#32
  let main_v5 : FVec F S20000x4096 .f32 := broadcastInDim S20000x4096 ![] bcast_S_S20000x4096 main_cst_0
  let main_v6 : IVec S20000x4096 1 := cmpf .olt main_v4 main_v5
  let main_c_1 : IVec S_ 1 := constantI S_ 1 1#1
  let main_v7 : IVec S_ 1 := (fun x v => Host.reduce IntOp.andi x v reducesTo_S20000x4096_S_d0_1 h_S_) main_v6 main_c_1
  let main_v8 : IVec S_ 1 := andi main_v3 main_v7
  let main_v9 : FVec F S20000x4096 .f32 := Host.absf main_arg2
  let main_cst_2 : FVec F S_ .f32 := constant S_ .f32 0x7F800000#32
  let main_v10 : FVec F S20000x4096 .f32 := broadcastInDim S20000x4096 ![] bcast_S_S20000x4096 main_cst_2
  let main_v11 : IVec S20000x4096 1 := cmpf .olt main_v9 main_v10
  let main_c_3 : IVec S_ 1 := constantI S_ 1 1#1
  let main_v12 : IVec S_ 1 := (fun x v => Host.reduce IntOp.andi x v reducesTo_S20000x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S128x20000 : Shape := ⟨2, ![128, 20000]⟩
abbrev S20000x4096 : Shape := ⟨2, ![20000, 4096]⟩
abbrev S4096 : Shape := ⟨1, ![4096]⟩
abbrev S4096x1 : Shape := ⟨2, ![4096, 1]⟩
abbrev S1 : Shape := ⟨1, ![1]⟩
abbrev S20000x128 : Shape := ⟨2, ![20000, 128]⟩
abbrev S1x4096 : Shape := ⟨2, ![1, 4096]⟩
abbrev S128x4096 : Shape := ⟨2, ![128, 4096]⟩
abbrev S2000x128 : Shape := ⟨2, ![2000, 128]⟩
abbrev S2000x512 : Shape := ⟨2, ![2000, 512]⟩
abbrev S1x512 : Shape := ⟨2, ![1, 512]⟩
abbrev S128x512 : Shape := ⟨2, ![128, 512]⟩
abbrev S512 : Shape := ⟨1, ![512]⟩
abbrev S128x1 : Shape := ⟨2, ![128, 1]⟩
abbrev S1x1 : Shape := ⟨2, ![1, 1]⟩

abbrev nBuf : Space → Nat
  | .hbm => 21
  | .vmem => 22
  | .smem => 0
  | _ => 0

abbrev bufTy : (tb : Table) → Fin (tcTables nBuf tb) → BufTy
  | .hbm, ⟨0, _⟩ => ⟨S128x20000, .f32⟩
  | .hbm, ⟨1, _⟩ => ⟨S20000x4096, .f32⟩
  | .hbm, ⟨2, _⟩ => ⟨S20000x4096, .f32⟩
  | .hbm, ⟨3, _⟩ => ⟨S4096, .f32⟩
  | .hbm, ⟨4, _⟩ => ⟨S20000x4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S1, .f32⟩
  | .hbm, ⟨10, _⟩ => ⟨S20000x128, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S128x4096, .f32⟩
  | .hbm, ⟨16, _⟩ => ⟨S128x4096, .f32⟩
  | .hbm, ⟨17, _⟩ => ⟨S128x1, .f32⟩
  | .hbm, ⟨18, _⟩ => ⟨S1x1, .f32⟩
  | .hbm, ⟨19, _⟩ => ⟨S128x1, .f32⟩
  | .hbm, ⟨20, _⟩ => ⟨S128x1, .f32⟩
  | .local _ .vmem, ⟨0, _⟩ => ⟨S2000x128, .f32⟩
  | .local _ .vmem, ⟨1, _⟩ => ⟨S2000x128, .f32⟩
  | .local _ .vmem, ⟨2, _⟩ => ⟨S2000x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | _, _ => ⟨S128x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v24 : BitVec 1 := Scalar.cmpi .eq arg1 c9_i32
  let v25 : BitVec 32 := Scalar.extui v24
  let c0_i32_17 : BitVec 32 := 0#32
  let v26 : BitVec 1 := Scalar.cmpi .ne v25 c0_i32_17
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  transposes_S128x20000_S20000x128_1_0 : S128x20000.Transposes [1, 0] S20000x128
  shapeCasts_S4096_S1x4096 : S4096.ShapeCasts S1x4096
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  reduces_S128x512_S512 : S128x512.Reduces [0] S512
  shapeCasts_S512_S1x512 : S512.ShapeCasts S1x512
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S2000x128_S2000x512_S128x512_0_0_1_1_n_n_wf : DotDims.WF S2000x128 S2000x512 S128x512 [0] [0] [1] [1] [] []
  dot_S128x4096_S4096x1_S128x1_1_0_0_1_n_n_wf : DotDims.WF S128x4096 S4096x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S20000x4096.size a
  hwx0_1 : ∀ i : grid0.Coords, EltTy.bits .f32 = 32 ∨ (Rect.block (s := S20000x4096) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S20000x4096.size a
  hwx0_2 : ∀ i : grid0.Coords, EltTy.bits .f32 = 32 ∨ (Rect.block (s := S20000x4096) S2000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S20000x4096.size a
  hwx0_3 : ∀ i : grid0.Coords, EltTy.bits .f32 = 32 ∨ (Rect.block (s := S20000x4096) S2000x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .f32 = 32 ∨ (Rect.block (s := S1x4096) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S128x4096.size a
  hwx0_8 : ∀ i : grid0.Coords, EltTy.bits .f32 = 32 ∨ (Rect.block (s := S128x4096) S128x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x512.size a ≤ S128x4096.size a
  hwx0_9 : ∀ i : grid0.Coords, EltTy.bits .f32 = 32 ∨ (Rect.block (s := S128x4096) S128x512.size (cc0_transform_9 i) (hinb0_9 i)).WholeWords (EltTy.packing .f32)

variable [Facts₀]

def dot_S2000x128_S2000x512_S128x512_0_0_1_1_n_n : DotDims S2000x128 S2000x512 S128x512 where
  lhsContracting := [0]
  rhsContracting := [0]
  lhsNonContracting := [1]
  rhsNonContracting := [1]
  lhsBatch := []
  rhsBatch := []
  wf := dot_S2000x128_S2000x512_S128x512_0_0_1_1_n_n_wf
def dot_S128x4096_S4096x1_S128x1_1_0_0_1_n_n : DotDims S128x4096 S4096x1 S128x1 where
  lhsContracting := [1]
  rhsContracting := [0]
  lhsNonContracting := [0]
  rhsNonContracting := [1]
  lhsBatch := []
  rhsBatch := []
  wf := dot_S128x4096_S4096x1_S128x1_1_0_0_1_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2000x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S128x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S128x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S128x20000 : Shape := ⟨2, ![128, 20000]⟩
abbrev S20000x4096 : Shape := ⟨2, ![20000, 4096]⟩
abbrev S4096 : Shape := ⟨1, ![4096]⟩
abbrev S4096x1 : Shape := ⟨2, ![4096, 1]⟩
abbrev S1 : Shape := ⟨1, ![1]⟩
abbrev S128x4096 : Shape := ⟨2, ![128, 4096]⟩
abbrev S1x4096 : Shape := ⟨2, ![1, 4096]⟩
abbrev S_ : Shape := ⟨0, ![]⟩
abbrev S128x1 : Shape := ⟨2, ![128, 1]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S128x20000, .f32⟩
  | .hbm, ⟨1, _⟩ => ⟨S20000x4096, .f32⟩
  | .hbm, ⟨2, _⟩ => ⟨S20000x4096, .f32⟩
  | .hbm, ⟨3, _⟩ => ⟨S4096, .f32⟩
  | .hbm, ⟨4, _⟩ => ⟨S20000x4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S1, .f32⟩
  | .hbm, ⟨10, _⟩ => ⟨S20000x4096, .f32⟩
  | .hbm, ⟨11, _⟩ => ⟨S128x4096, .f32⟩
  | .hbm, ⟨12, _⟩ => ⟨S1x4096, .f32⟩
  | .hbm, ⟨13, _⟩ => ⟨S128x4096, .f32⟩
  | .hbm, ⟨14, _⟩ => ⟨S128x4096, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S1x4096, .f32⟩
  | .hbm, ⟨21, _⟩ => ⟨S128x4096, .f32⟩
  | .hbm, ⟨22, _⟩ => ⟨S128x4096, .f32⟩
  | .hbm, ⟨23, _⟩ => ⟨S128x4096, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S1x4096, .f32⟩
  | .hbm, ⟨30, _⟩ => ⟨S128x4096, .f32⟩
  | .hbm, ⟨31, _⟩ => ⟨S128x4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S1x4096, .f32⟩
  | .hbm, ⟨37, _⟩ => ⟨S128x4096, .f32⟩
  | .hbm, ⟨38, _⟩ => ⟨S128x4096, .f32⟩
  | .hbm, ⟨39, _⟩ => ⟨S1x4096, .f32⟩
  | .hbm, ⟨40, _⟩ => ⟨S128x4096, .f32⟩
  | .hbm, ⟨41, _⟩ => ⟨S128x4096, .f32⟩
  | .hbm, ⟨42, _⟩ => ⟨S1x4096, .f32⟩
  | .hbm, ⟨43, _⟩ => ⟨S128x4096, .f32⟩
  | .hbm, ⟨44, _⟩ => ⟨S128x4096, .f32⟩
  | .hbm, ⟨45, _⟩ => ⟨S128x4096, .f32⟩
  | .hbm, ⟨46, _⟩ => ⟨S128x4096, .f32⟩
  | .hbm, ⟨47, _⟩ => ⟨S1x4096, .f32⟩
  | .hbm, ⟨48, _⟩ => ⟨S128x4096, .f32⟩
  | .hbm, ⟨49, _⟩ => ⟨S128x4096, .f32⟩
  | .hbm, ⟨50, _⟩ => ⟨S128x4096, .f32⟩
  | .hbm, ⟨51, _⟩ => ⟨S128x4096, .f32⟩
  | .hbm, ⟨52, _⟩ => ⟨S_, .f32⟩
  | .hbm, ⟨53, _⟩ => ⟨S128x4096, .f32⟩
  | .hbm, ⟨54, _⟩ => ⟨S128x4096, .f32⟩
  | .hbm, ⟨55, _⟩ => ⟨S_, .f32⟩
  | .hbm, ⟨56, _⟩ => ⟨S128x4096, .f32⟩
  | .hbm, ⟨57, _⟩ => ⟨S128x4096, .f32⟩
  | .hbm, ⟨58, _⟩ => ⟨S128x4096, .f32⟩
  | .hbm, ⟨59, _⟩ => ⟨S128x1, .f32⟩
  | .hbm, ⟨60, _⟩ => ⟨S1x1, .f32⟩
  | .hbm, ⟨61, _⟩ => ⟨S128x1, .f32⟩
  | .hbm, ⟨62, _⟩ => ⟨S128x1, .f32⟩
  | _, _ => ⟨S128x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  reducesTo_S128x4096_S4096_d0 : S128x4096.ReducesTo [0] S4096
  h_S_ : 0 < S_.numel
  bcast_S_S4096 : S_.BroadcastsInDim S4096 (![] : Fin 0 → Fin S4096.rank)
  bcast_S_S128x4096 : S_.BroadcastsInDim S128x4096 (![] : Fin 0 → Fin S128x4096.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S128x20000_S20000x4096_S128x4096_1_0_0_1_n_n_wf : DotDims.WF S128x20000 S20000x4096 S128x4096 [1] [0] [0] [1] [] []
  dot_S128x4096_S4096x1_S128x1_1_0_0_1_n_n_wf : DotDims.WF S128x4096 S4096x1 S128x1 [1] [0] [0] [1] [] []

variable [Facts₀]

def dot_S128x20000_S20000x4096_S128x4096_1_0_0_1_n_n : DotDims S128x20000 S20000x4096 S128x4096 where
  lhsContracting := [1]
  rhsContracting := [0]
  lhsNonContracting := [0]
  rhsNonContracting := [1]
  lhsBatch := []
  rhsBatch := []
  wf := dot_S128x20000_S20000x4096_S128x4096_1_0_0_1_n_n_wf
def dot_S128x4096_S4096x1_S128x1_1_0_0_1_n_n : DotDims S128x4096 S4096x1 S128x1 where
  lhsContracting := [1]
  rhsContracting := [0]
  lhsNonContracting := [0]
  rhsNonContracting := [1]
  lhsBatch := []
  rhsBatch := []
  wf := dot_S128x4096_S4096x1_S128x1_1_0_0_1_n_n_wf

class Facts : Prop extends Facts₀ where

variable [Facts]
-- ==== Proof.Pieces.lean ====
import proofs.«140083_j4827543241281_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What each of the body's three control cases leaves in the two carried accumulators and, at a tile's last step, in the
    two output blocks: each is the one payload the case's last covering store wrote, as a function of the blocks the
    body loaded. -/
namespace Cert.KernelIdeal.Pieces
open Cert.KernelIdeal Cert.KernelIdeal.Gen
variable {F : FTy → Type} [FloatOps F]

theorem hz : (![0, 0] : Fin 2 → Nat) = fun _ => 0 := funext fun a => by fin_cases a <;> rfl

theorem accH_first (c : Dev nD) (i : grid0.Coords) (arg2 : Memref sig .tc .vmem S2000x128 .f32) (harg2 : arg2.IsWhole) (arg3 : Memref sig .tc .vmem S2000x512 .f32) (harg3 : arg3.IsWhole) (arg4 : Memref sig .tc .vmem S2000x512 .f32) (harg4 : arg4.IsWhole) (arg5 : Memref sig .tc .vmem S2000x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : cond0_0 i) (hc1 : ¬cond0_1 i) (x0 : Vec F S2000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay4 x0 x2 x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S128x512) hz, View.readCov_unit_zero (S := S128x512) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x128) hz, View.ld_unit_zero (S := S2000x512) hz, View.ld_unit_zero (S := S128x512) hz, View.ld_unit_zero (S := S1x512) hz]

theorem accA_first (c : Dev nD) (i : grid0.Coords) (arg2 : Memref sig .tc .vmem S2000x128 .f32) (harg2 : arg2.IsWhole) (arg3 : Memref sig .tc .vmem S2000x512 .f32) (harg3 : arg3.IsWhole) (arg4 : Memref sig .tc .vmem S2000x512 .f32) (harg4 : arg4.IsWhole) (arg5 : Memref sig .tc .vmem S2000x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : cond0_0 i) (hc1 : ¬cond0_1 i) (x0 : Vec F S2000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay5 x0 x3 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S128x512) hz, View.readCov_unit_zero (S := S128x512) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x128) hz, View.ld_unit_zero (S := S2000x512) hz, View.ld_unit_zero (S := S128x512) hz, View.ld_unit_zero (S := S1x512) hz]

theorem accH_mid (c : Dev nD) (i : grid0.Coords) (arg2 : Memref sig .tc .vmem S2000x128 .f32) (harg2 : arg2.IsWhole) (arg3 : Memref sig .tc .vmem S2000x512 .f32) (harg3 : arg3.IsWhole) (arg4 : Memref sig .tc .vmem S2000x512 .f32) (harg4 : arg4.IsWhole) (arg5 : Memref sig .tc .vmem S2000x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : ¬cond0_0 i) (hc1 : ¬cond0_1 i) (x0 : Vec F S2000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) (xs0 xs1 : Vec F S128x512 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay4 x0 x2 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x128) hz, View.ld_unit_zero (S := S2000x512) hz, View.ld_unit_zero (S := S128x512) hz, View.ld_unit_zero (S := S1x512) hz]

theorem accA_mid (c : Dev nD) (i : grid0.Coords) (arg2 : Memref sig .tc .vmem S2000x128 .f32) (harg2 : arg2.IsWhole) (arg3 : Memref sig .tc .vmem S2000x512 .f32) (harg3 : arg3.IsWhole) (arg4 : Memref sig .tc .vmem S2000x512 .f32) (harg4 : arg4.IsWhole) (arg5 : Memref sig .tc .vmem S2000x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : ¬cond0_0 i) (hc1 : ¬cond0_1 i) (x0 : Vec F S2000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) (xs0 xs1 : Vec F S128x512 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay5 x0 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x128) hz, View.ld_unit_zero (S := S2000x512) hz, View.ld_unit_zero (S := S128x512) hz, View.ld_unit_zero (S := S1x512) hz]

theorem accH_last (c : Dev nD) (i : grid0.Coords) (arg2 : Memref sig .tc .vmem S2000x128 .f32) (harg2 : arg2.IsWhole) (arg3 : Memref sig .tc .vmem S2000x512 .f32) (harg3 : arg3.IsWhole) (arg4 : Memref sig .tc .vmem S2000x512 .f32) (harg4 : arg4.IsWhole) (arg5 : Memref sig .tc .vmem S2000x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : ¬cond0_0 i) (hc1 : cond0_1 i) (x0 : Vec F S2000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) (xs0 xs1 : Vec F S128x512 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay4 x0 x2 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x128) hz, View.ld_unit_zero (S := S2000x512) hz, View.ld_unit_zero (S := S128x512) hz, View.ld_unit_zero (S := S1x512) hz, View.readCov_unit_zero (S := S128x512) _ hz]

theorem accA_last (c : Dev nD) (i : grid0.Coords) (arg2 : Memref sig .tc .vmem S2000x128 .f32) (harg2 : arg2.IsWhole) (arg3 : Memref sig .tc .vmem S2000x512 .f32) (harg3 : arg3.IsWhole) (arg4 : Memref sig .tc .vmem S2000x512 .f32) (harg4 : arg4.IsWhole) (arg5 : Memref sig .tc .vmem S2000x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : ¬cond0_0 i) (hc1 : cond0_1 i) (x0 : Vec F S2000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) (xs0 xs1 : Vec F S128x512 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay5 x0 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x128) hz, View.ld_unit_zero (S := S2000x512) hz, View.ld_unit_zero (S := S128x512) hz, View.ld_unit_zero (S := S1x512) hz, View.readCov_unit_zero (S := S128x512) _ hz]

theorem outcome_last (c : Dev nD) (i : grid0.Coords) (arg2 : Memref sig .tc .vmem S2000x128 .f32) (harg2 : arg2.IsWhole) (arg3 : Memref sig .tc .vmem S2000x512 .f32) (harg3 : arg3.IsWhole) (arg4 : Memref sig .tc .vmem S2000x512 .f32) (harg4 : arg4.IsWhole) (arg5 : Memref sig .tc .vmem S2000x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : ¬cond0_0 i) (hc1 : cond0_1 i) (x0 : Vec F S2000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) (xs0 xs1 : Vec F S128x512 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay7 (k0_pay4 x0 x2 x1 xs0) x4 x6 x7 (k0_pay5 x0 x3 xs1) x5 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x128) hz, View.ld_unit_zero (S := S2000x512) hz, View.ld_unit_zero (S := S128x512) hz, View.ld_unit_zero (S := S1x512) hz, View.readCov_unit_zero (S := S128x512) _ hz]

theorem attn_last (c : Dev nD) (i : grid0.Coords) (arg2 : Memref sig .tc .vmem S2000x128 .f32) (harg2 : arg2.IsWhole) (arg3 : Memref sig .tc .vmem S2000x512 .f32) (harg3 : arg3.IsWhole) (arg4 : Memref sig .tc .vmem S2000x512 .f32) (harg4 : arg4.IsWhole) (arg5 : Memref sig .tc .vmem S2000x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : ¬cond0_0 i) (hc1 : cond0_1 i) (x0 : Vec F S2000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) (xs0 xs1 : Vec F S128x512 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay6 (k0_pay5 x0 x3 xs1) x5 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x128) hz, View.ld_unit_zero (S := S2000x512) hz, View.ld_unit_zero (S := S128x512) hz, View.ld_unit_zero (S := S1x512) hz, View.readCov_unit_zero (S := S128x512) _ hz]

end Cert.KernelIdeal.Pieces

end
-- ==== Proof.Blocks.lean ====
import proofs.«140083_j4827543241281_1_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

/-! Which entries of the argument arrays the body sees at grid point `t = 10·π + κ` (column tile `π < 8`, position tile
    `κ < 10`): the transposed input block holds rows `2000κ … 2000κ+1999`, each weight block those rows and columns
    `512π … 512π+511`, each row-vector block and each output block the columns `512π … 512π+511`. The host lines before
    the call transpose the inputs and view the four length-4096 vectors as one-row matrices. -/
namespace Cert.KernelIdeal.Blocks
open Cert.KernelIdeal Cert.KernelIdeal.Gen Idealize.ShloMosaic.ValueIdx
variable {F : FTy → Type} [FloatOps F]
variable (m : (ℓ : Loc nD τ sig) → Buf (Elt F) ℓ)

/-! ## The block indices over the grid, decided once -/

theorem idx_x : ∀ t : Fin cfg0.N, win0_0.index t (0 : Fin 2) = t.val % 10 ∧ win0_0.index t (1 : Fin 2) = 0 :=
  (by decide +kernel : ∀ t : Fin grid0.N, win0_0.index t (0 : Fin 2) = t.val % 10 ∧ win0_0.index t (1 : Fin 2) = 0)
theorem idx_mapp : ∀ t : Fin cfg0.N, win0_1.index t (0 : Fin 2) = t.val % 10 ∧ win0_1.index t (1 : Fin 2) = t.val / 10 :=
  (by decide +kernel : ∀ t : Fin grid0.N, win0_1.index t (0 : Fin 2) = t.val % 10 ∧ win0_1.index t (1 : Fin 2) = t.val / 10)
theorem idx_kern : ∀ t : Fin cfg0.N, win0_2.index t (0 : Fin 2) = t.val % 10 ∧ win0_2.index t (1 : Fin 2) = t.val / 10 :=
  (by decide +kernel : ∀ t : Fin grid0.N, win0_2.index t (0 : Fin 2) = t.val % 10 ∧ win0_2.index t (1 : Fin 2) = t.val / 10)
theorem idx_att : ∀ t : Fin cfg0.N, win0_3.index t (0 : Fin 2) = t.val % 10 ∧ win0_3.index t (1 : Fin 2) = t.val / 10 :=
  (by decide +kernel : ∀ t : Fin grid0.N, win0_3.index t (0 : Fin 2) = t.val % 10 ∧ win0_3.index t (1 : Fin 2) = t.val / 10)
theorem idx_bias : ∀ t : Fin cfg0.N, win0_4.index t (0 : Fin 2) = 0 ∧ win0_4.index t (1 : Fin 2) = t.val / 10 :=
  (by decide +kernel : ∀ t : Fin grid0.N, win0_4.index t (0 : Fin 2) = 0 ∧ win0_4.index t (1 : Fin 2) = t.val / 10)
theorem idx_attb : ∀ t : Fin cfg0.N, win0_5.index t (0 : Fin 2) = 0 ∧ win0_5.index t (1 : Fin 2) = t.val / 10 :=
  (by decide +kernel : ∀ t : Fin grid0.N, win0_5.index t (0 : Fin 2) = 0 ∧ win0_5.index t (1 : Fin 2) = t.val / 10)
theorem idx_gamma : ∀ t : Fin cfg0.N, win0_6.index t (0 : Fin 2) = 0 ∧ win0_6.index t (1 : Fin 2) = t.val / 10 :=
  (by decide +kernel : ∀ t : Fin grid0.N, win0_6.index t (0 : Fin 2) = 0 ∧ win0_6.index t (1 : Fin 2) = t.val / 10)
theorem idx_beta : ∀ t : Fin cfg0.N, win0_7.index t (0 : Fin 2) = 0 ∧ win0_7.index t (1 : Fin 2) = t.val / 10 :=
  (by decide +kernel : ∀ t : Fin grid0.N, win0_7.index t (0 : Fin 2) = 0 ∧ win0_7.index t (1 : Fin 2) = t.val / 10)
theorem idx_out : ∀ t : Fin cfg0.N, win0_8.index t (0 : Fin 2) = 0 ∧ win0_8.index t (1 : Fin 2) = t.val / 10 :=
  (by decide +kernel : ∀ t : Fin grid0.N, win0_8.index t (0 : Fin 2) = 0 ∧ win0_8.index t (1 : Fin 2) = t.val / 10)
theorem idx_attn : ∀ t : Fin cfg0.N, win0_9.index t (0 : Fin 2) = 0 ∧ win0_9.index t (1 : Fin 2) = t.val / 10 :=
  (by decide +kernel : ∀ t : Fin grid0.N, win0_9.index t (0 : Fin 2) = 0 ∧ win0_9.index t (1 : Fin 2) = t.val / 10)

/-! ## The arrays the host lines before the call make -/

/-- The call's first operand is the transposed inputs. -/
theorem V_xT (c : Dev nD) (g : Fin 20000) (b : Fin 128) :
    (V m c main_v0 : S20000x128.Idx → Elt F .f32) (ix2 g b) = m ((c : Thread nD τ).loc main_arg0) (ix2 b g) := by
  have e : (V m c main_v0 : S20000x128.Idx → Elt F .f32)
      = transpose S20000x128 [1, 0] (m ((c : Thread nD τ).loc main_arg0)) transposes_S128x20000_S20000x128_1_0 := by
    show StableHlo.after hostOps0 (fun b => m (c, b)) (Proc.devRef .tc main_v0) = _
    after_results
  rw [e]
  exact transpose_ix2_apply _ _ g b

/-- The bias as a one-row matrix. -/
theorem V_bias (c : Dev nD) (p : Fin 4096) :
    (V m c main_v1 : S1x4096.Idx → Elt F .f32) (ix2 (0 : Fin 1) p) = m ((c : Thread nD τ).loc main_arg3) (ix1 p) := by
  have e : (V m c main_v1 : S1x4096.Idx → Elt F .f32)
      = shapeCast S1x4096 (m ((c : Thread nD τ).loc main_arg3)) shapeCasts_S4096_S1x4096 := by
    show StableHlo.after hostOps0 (fun b => m (c, b)) (Proc.devRef .tc main_v1) = _
    after_results
    rfl
  rw [e]
  exact shapeCast_a_1a_apply _ _ (0 : Fin 1) p

/-- The attention bias as a one-row matrix. -/
theorem V_attb (c : Dev nD) (p : Fin 4096) :
    (V m c main_v2 : S1x4096.Idx → Elt F .f32) (ix2 (0 : Fin 1) p) = m ((c : Thread nD τ).loc main_arg5) (ix1 p) := by
  have e : (V m c main_v2 : S1x4096.Idx → Elt F .f32)
      = shapeCast S1x4096 (m ((c : Thread nD τ).loc main_arg5)) shapeCasts_S4096_S1x4096 := by
    show StableHlo.after hostOps0 (fun b => m (c, b)) (Proc.devRef .tc main_v2) = _
    after_results
    rfl
  rw [e]
  exact shapeCast_a_1a_apply _ _ (0 : Fin 1) p

/-- The scale as a one-row matrix. -/
theorem V_gamma (c : Dev nD) (p : Fin 4096) :
    (V m c main_v3 : S1x4096.Idx → Elt F .f32) (ix2 (0 : Fin 1) p) = m ((c : Thread nD τ).loc main_arg6) (ix1 p) := by
  have e : (V m c main_v3 : S1x4096.Idx → Elt F .f32)
      = shapeCast S1x4096 (m ((c : Thread nD τ).loc main_arg6)) shapeCasts_S4096_S1x4096 := by
    show StableHlo.after hostOps0 (fun b => m (c, b)) (Proc.devRef .tc main_v3) = _
    after_results
    rfl
  rw [e]
  exact shapeCast_a_1a_apply _ _ (0 : Fin 1) p

/-- The shift as a one-row matrix. -/
theorem V_beta (c : Dev nD) (p : Fin 4096) :
    (V m c main_v4 : S1x4096.Idx → Elt F .f32) (ix2 (0 : Fin 1) p) = m ((c : Thread nD τ).loc main_arg7) (ix1 p) := by
  have e : (V m c main_v4 : S1x4096.Idx → Elt F .f32)
      = shapeCast S1x4096 (m ((c : Thread nD τ).loc main_arg7)) shapeCasts_S4096_S1x4096 := by
    show StableHlo.after hostOps0 (fun b => m (c, b)) (Proc.devRef .tc main_v4) = _
    after_results
    rfl
  rw [e]
  exact shapeCast_a_1a_apply _ _ (0 : Fin 1) p

/-! ## The blocks at a grid point -/

/-- The transposed input block at point `t`: position `2000κ + r`, batch row `b`. -/
theorem xblk_apply (c : Dev nD) (t : Fin cfg0.N) (r : Fin 2000) (b : Fin 128) (g : Fin 20000)
    (hg : g.val = 2000 * (t.val % 10) + r.val) :
    (iblk m c 0 t : Vec F S2000x128 .f32) (ix2 r b) = m ((c : Thread nD τ).loc main_arg0) (ix2 b g) := by
  rw [← V_xT m c g b]
  unfold iblk
  rw [View.read_apply]
  show V m c main_v0 _ = _
  congr 1
  funext a
  apply Fin.ext
  match a with
  | ⟨0, _⟩ => show win0_0.index t 0 * 2000 + 1 * r.val = g.val; rw [(idx_x t).1, hg]; omega
  | ⟨1, _⟩ => show win0_0.index t 1 * 128 + 1 * b.val = b.val; rw [(idx_x t).2]; omega

/-- The connectivity-map block at point `t`. -/
theorem mappblk_apply (c : Dev nD) (t : Fin cfg0.N) (r : Fin 2000) (q : Fin 512) (g : Fin 20000) (p : Fin 4096)
    (hg : g.val = 2000 * (t.val % 10) + r.val) (hp : p.val = 512 * (t.val / 10) + q.val) :
    (iblk m c 1 t : Vec F S2000x512 .f32) (ix2 r q) = m ((c : Thread nD τ).loc main_arg1) (ix2 g p) := by
  unfold iblk
  rw [View.read_apply]
  show V m c main_arg1 _ = _
  rw [V_main_arg1 m c]
  congr 1
  funext a
  apply Fin.ext
  match a with
  | ⟨0, _⟩ => show win0_1.index t 0 * 2000 + 1 * r.val = g.val; rw [(idx_mapp t).1, hg]; omega
  | ⟨1, _⟩ => show win0_1.index t 1 * 512 + 1 * q.val = p.val; rw [(idx_mapp t).2, hp]; omega

/-- The weight block at point `t`. -/
theorem kernblk_apply (c : Dev nD) (t : Fin cfg0.N) (r : Fin 2000) (q : Fin 512) (g : Fin 20000) (p : Fin 4096)
    (hg : g.val = 2000 * (t.val % 10) + r.val) (hp : p.val = 512 * (t.val / 10) + q.val) :
    (iblk m c 2 t : Vec F S2000x512 .f32) (ix2 r q) = m ((c : Thread nD τ).loc main_arg2) (ix2 g p) := by
  unfold iblk
  rw [View.read_apply]
  show V m c main_arg2 _ = _
  rw [V_main_arg2 m c]
  congr 1
  funext a
  apply Fin.ext
  match a with
  | ⟨0, _⟩ => show win0_2.index t 0 * 2000 + 1 * r.val = g.val; rw [(idx_kern t).1, hg]; omega
  | ⟨1, _⟩ => show win0_2.index t 1 * 512 + 1 * q.val = p.val; rw [(idx_kern t).2, hp]; omega

/-- The attention-weight block at point `t`. -/
theorem attblk_apply (c : Dev nD) (t : Fin cfg0.N) (r : Fin 2000) (q : Fin 512) (g : Fin 20000) (p : Fin 4096)
    (hg : g.val = 2000 * (t.val % 10) + r.val) (hp : p.val = 512 * (t.val / 10) + q.val) :
    (iblk m c 3 t : Vec F S2000x512 .f32) (ix2 r q) = m ((c : Thread nD τ).loc main_arg4) (ix2 g p) := by
  unfold iblk
  rw [View.read_apply]
  show V m c main_arg4 _ = _
  rw [V_main_arg4 m c]
  congr 1
  funext a
  apply Fin.ext
  match a with
  | ⟨0, _⟩ => show win0_3.index t 0 * 2000 + 1 * r.val = g.val; rw [(idx_att t).1, hg]; omega
  | ⟨1, _⟩ => show win0_3.index t 1 * 512 + 1 * q.val = p.val; rw [(idx_att t).2, hp]; omega

/-- The bias block at point `t`. -/
theorem biasblk_apply (c : Dev nD) (t : Fin cfg0.N) (q : Fin 512) (p : Fin 4096) (hp : p.val = 512 * (t.val / 10) + q.val) :
    (iblk m c 4 t : Vec F S1x512 .f32) (ix2 (0 : Fin 1) q) = m ((c : Thread nD τ).loc main_arg3) (ix1 p) := by
  rw [← V_bias m c p]
  unfold iblk
  rw [View.read_apply]
  show V m c main_v1 _ = _
  congr 1
  funext a
  apply Fin.ext
  match a with
  | ⟨0, _⟩ => show win0_4.index t 0 * 1 + 1 * 0 = 0; rw [(idx_bias t).1]
  | ⟨1, _⟩ => show win0_4.index t 1 * 512 + 1 * q.val = p.val; rw [(idx_bias t).2, hp]; omega

/-- The attention-bias block at point `t`. -/
theorem attbblk_apply (c : Dev nD) (t : Fin cfg0.N) (q : Fin 512) (p : Fin 4096) (hp : p.val = 512 * (t.val / 10) + q.val) :
    (iblk m c 5 t : Vec F S1x512 .f32) (ix2 (0 : Fin 1) q) = m ((c : Thread nD τ).loc main_arg5) (ix1 p) := by
  rw [← V_attb m c p]
  unfold iblk
  rw [View.read_apply]
  show V m c main_v2 _ = _
  congr 1
  funext a
  apply Fin.ext
  match a with
  | ⟨0, _⟩ => show win0_5.index t 0 * 1 + 1 * 0 = 0; rw [(idx_attb t).1]
  | ⟨1, _⟩ => show win0_5.index t 1 * 512 + 1 * q.val = p.val; rw [(idx_attb t).2, hp]; omega

/-- The scale block at point `t`. -/
theorem gammablk_apply (c : Dev nD) (t : Fin cfg0.N) (q : Fin 512) (p : Fin 4096) (hp : p.val = 512 * (t.val / 10) + q.val) :
    (iblk m c 6 t : Vec F S1x512 .f32) (ix2 (0 : Fin 1) q) = m ((c : Thread nD τ).loc main_arg6) (ix1 p) := by
  rw [← V_gamma m c p]
  unfold iblk
  rw [View.read_apply]
  show V m c main_v3 _ = _
  congr 1
  funext a
  apply Fin.ext
  match a with
  | ⟨0, _⟩ => show win0_6.index t 0 * 1 + 1 * 0 = 0; rw [(idx_gamma t).1]
  | ⟨1, _⟩ => show win0_6.index t 1 * 512 + 1 * q.val = p.val; rw [(idx_gamma t).2, hp]; omega

/-- The shift block at point `t`. -/
theorem betablk_apply (c : Dev nD) (t : Fin cfg0.N) (q : Fin 512) (p : Fin 4096) (hp : p.val = 512 * (t.val / 10) + q.val) :
    (iblk m c 7 t : Vec F S1x512 .f32) (ix2 (0 : Fin 1) q) = m ((c : Thread nD τ).loc main_arg7) (ix1 p) := by
  rw [← V_beta m c p]
  unfold iblk
  rw [View.read_apply]
  show V m c main_v4 _ = _
  congr 1
  funext a
  apply Fin.ext
  match a with
  | ⟨0, _⟩ => show win0_7.index t 0 * 1 + 1 * 0 = 0; rw [(idx_beta t).1]
  | ⟨1, _⟩ => show win0_7.index t 1 * 512 + 1 * q.val = p.val; rw [(idx_beta t).2, hp]; omega

end Cert.KernelIdeal.Blocks

end
-- ==== Proof.GateSpec.lean ====
/-
  The layer both programs compute, one entry at a time, over the extended reals.

  For a batch of 128 rows and one output column the pre-activation is `h b`. The column is normalised over the batch:
  its mean `μ = (∑ b, h b) / 128`, its (biased) variance `σ² = (∑ b, (h b - μ)²) / 128`, and the normalised entry
  `(h b - μ) · (σ² + ε)^(-1/2)`; an affine map `· γ + β` and `tanh` follow, and the result is multiplied by the
  logistic gate of a second pre-activation `a`. The divisor `128` and `ε` are kept as the two single-precision words
  both programs print, so that nothing here depends on what those words denote.

  The pre-activations themselves are contractions over 20000 positions: `dot x w b p = ∑ g, x b g * w g p`.
-/
import Idealize.ShloMosaic.PureOps.Ideal

noncomputable section

open scoped BigOperators

namespace Cert.GateSpec

open Idealize.ShloMosaic

/-- The batch size as both programs write it: the word of `128.0`. -/
abbrev batchWord : EReal := Ideal.ofBits .f32 0x43000000#32
/-- The variance offset as both programs write it: the word nearest `1e-5`. -/
abbrev epsWord : EReal := Ideal.ofBits .f32 0x3727C5AC#32

/-- The column's mean over the batch. -/
def mean (h : Fin 128 → EReal) : EReal := Ideal.div (∑ b, h b) batchWord

/-- The column's biased variance over the batch. -/
def var (h : Fin 128 → EReal) : EReal := Ideal.div (∑ b, (h b - mean h) * (h b - mean h)) batchWord

/-- The normalised entry of row `b`. -/
def normed (h : Fin 128 → EReal) (b : Fin 128) : EReal := (h b - mean h) * Ideal.rsqrt (var h + epsWord)

/-- The gated activation of row `b`: `tanh (normed · γ + β) · logistic a`. -/
def gated (h : Fin 128 → EReal) (γ β a : EReal) (b : Fin 128) : EReal :=
  Ideal.tanh (normed h b * γ + β) * Ideal.logistic a

/-- A contraction over the 20000 positions. -/
def dot (x : Fin 128 → Fin 20000 → EReal) (w : Fin 20000 → Fin 4096 → EReal) (b : Fin 128) (p : Fin 4096) : EReal :=
  ∑ g, x b g * w g p

/-- The layer's first result at row `b`, column `p`: the masked weights `kern · mapp` contracted with the inputs, plus the
    bias, normalised over the batch, squashed, and gated by the attention pre-activation. -/
def outcomeAt (x : Fin 128 → Fin 20000 → EReal) (mapp kern att : Fin 20000 → Fin 4096 → EReal)
    (bias attb γ β : Fin 4096 → EReal) (b : Fin 128) (p : Fin 4096) : EReal :=
  gated (fun b' => dot x (fun g p' => kern g p' * mapp g p') b' p + bias p) (γ p) (β p) (dot x att b p + attb p) b

/-- The layer's attention result at row `b`, column `p`. -/
def attnAt (x : Fin 128 → Fin 20000 → EReal) (att : Fin 20000 → Fin 4096 → EReal) (attb : Fin 4096 → EReal)
    (b : Fin 128) (p : Fin 4096) : EReal :=
  Ideal.logistic (dot x att b p + attb p)

end Cert.GateSpec
-- ==== Proof.PayAt.lean ====
/-
  The body's stored values read one entry at a time, over the extended reals.

  A tile step adds to an accumulator block, at row `b` and column `q`, the contraction over the tile's two thousand
  positions of the transposed input block with the weight block (masked for the first accumulator); the last step of a
  tile then normalises the first accumulator's columns over the batch, applies the affine map and `tanh`, and gates the
  result by the logistic of the second accumulator. Changes of float format are the identity here, and a matrix product
  into a zero block is the plain sum of products.
-/
import proofs.«140083_j4827543241281_1_alg».proof.Proof.Gen.KernelIdeal.Skeleton
import proofs.«140083_j4827543241281_1_alg».proof.Proof.GateSpec
import Idealize.ShloMosaic.Lib.ValueIdx
import Idealize.ShloMosaic.Lib.ValueLayout
import Idealize.ShloMosaic.PureOps.Ideal.Laws

noncomputable section

open scoped BigOperators

namespace Cert.KernelIdeal.PayAt

open Idealize.ShloMosaic Idealize.ShloMosaic.ValueIdx Cert.KernelIdeal Cert.KernelIdeal.Gen

/-! ## Three more pointwise operations read at an entry -/

section Pointwise
variable {s : Shape} {φ : FTy}

/-- A reciprocal square root at an index is the reciprocal square root of the element. -/
theorem rsqrt_at (a : FVec Ideal s φ) (i : s.Idx) : rsqrt a i = Ideal.rsqrt (a i) := rfl
/-- A hyperbolic tangent at an index is that of the element. -/
theorem tanh_at (a : FVec Ideal s φ) (i : s.Idx) : tanh a i = Ideal.tanh (a i) := rfl
/-- A logistic at an index is that of the element. -/
theorem logistic_at (a : FVec Ideal s φ) (i : s.Idx) : logistic a i = Ideal.logistic (a i) := rfl

end Pointwise

/-- The word of zero, broadcast, reads zero everywhere. -/
theorem zero_word : (Scalar.ofBits (F := Ideal) .f32 0x00000000#32) = (0 : EReal) := Ideal.ofBits_zero_f32

/-! ## The sum over the 128 rows of a block, at column `q` -/

/-- The index the row reduction inserts: at column `q` its `k`-th term is read at `(k, q)`. -/
theorem lift_row (q : Fin 512) (k : Fin 128) : reduces_S128x512_S512.lift (ix1 q) k = ix2 k q := by
  funext a
  apply Fin.ext
  match a with
  | ⟨0, _⟩ => rfl
  | ⟨1, _⟩ => rfl

/-- The sum of a [128, 512] block over its rows, read at column `q`: the sum over `k` of the block at `(k, q)`. (An
    add reduction is by definition the instance's sum over the dropped axis, whatever accumulator word it names.) -/
theorem colsum_apply (x : FVec Ideal S128x512 .f32) (q : Fin 512) :
    FloatOps.reduceAdd (F := Ideal) [0] reduces_S128x512_S512 x (ix1 q) = ∑ k : Fin 128, x (ix2 k q) :=
  (Ideal.multiReduction_add_single x 0x00000000#32 reduces_S128x512_S512 (.inl rfl) rfl (ix1 q)).trans
    (Finset.sum_congr rfl fun k _ => congrArg x (lift_row q k))

/-! ## The tile's product, both factors contracted on their axis 0, read at entry `(b, q)`

The left factor is a [2000, 128] block and the right one a [2000, 512] block; the contraction runs over the 2000
positions, which are axis 0 of both. The left factor's axis 1 is the result's row and the right factor's axis 1 its
column. -/

/-- The left factor's axis 0 is its contracted axis: it reads the contraction position's one coordinate. -/
theorem lhs_dot_0 (i : S128x512.Idx) (k : dot_S2000x128_S2000x512_S128x512_0_0_1_1_n_n.contr.Idx) :
    (dot_S2000x128_S2000x512_S128x512_0_0_1_1_n_n.lhsIdx i k 0).val = (k ⟨0, by decide⟩).val :=
  dot_S2000x128_S2000x512_S128x512_0_0_1_1_n_n.lhsIdx_val_of_single rfl i k
/-- The left factor's axis 1 is its free axis, the result's row. -/
theorem lhs_dot_1 (i : S128x512.Idx) (k : dot_S2000x128_S2000x512_S128x512_0_0_1_1_n_n.contr.Idx) :
    (dot_S2000x128_S2000x512_S128x512_0_0_1_1_n_n.lhsIdx i k 1).val = (i 0).val := by
  unfold DotDims.lhsIdx
  rw [dif_neg (show ¬(1 : Fin S2000x128.rank) ∈ dot_S2000x128_S2000x512_S128x512_0_0_1_1_n_n.lhsBatch by decide), dif_pos (show (1 : Fin S2000x128.rank) ∈ dot_S2000x128_S2000x512_S128x512_0_0_1_1_n_n.lhsNonContracting by decide)]
  rfl
/-- The right factor's axis 0 is its contracted axis: it reads the contraction position's one coordinate. -/
theorem rhs_dot_0 (i : S128x512.Idx) (k : dot_S2000x128_S2000x512_S128x512_0_0_1_1_n_n.contr.Idx) :
    (dot_S2000x128_S2000x512_S128x512_0_0_1_1_n_n.rhsIdx i k 0).val = (k ⟨0, by decide⟩).val :=
  dot_S2000x128_S2000x512_S128x512_0_0_1_1_n_n.rhsIdx_val_of_single rfl i k
/-- The right factor's axis 1 is its free axis, the result's column (it comes after the left factor's free axis). -/
theorem rhs_dot_1 (i : S128x512.Idx) (k : dot_S2000x128_S2000x512_S128x512_0_0_1_1_n_n.contr.Idx) :
    (dot_S2000x128_S2000x512_S128x512_0_0_1_1_n_n.rhsIdx i k 1).val = (i 1).val := by
  unfold DotDims.rhsIdx
  rw [dif_neg (show ¬(1 : Fin S2000x512.rank) ∈ dot_S2000x128_S2000x512_S128x512_0_0_1_1_n_n.rhsBatch by decide), dif_pos (show (1 : Fin S2000x512.rank) ∈ dot_S2000x128_S2000x512_S128x512_0_0_1_1_n_n.rhsNonContracting by decide)]
  rfl

/-- The product into a zero block, at entry `(b, q)`: the sum over the 2000 positions `r` of the left factor at
    `(r, b)` times the right factor at `(r, q)`. -/
theorem tile_dot_apply {φ₁ φ₂ : FTy} (A : FVec Ideal S2000x128 φ₁) (B : FVec Ideal S2000x512 φ₂) (b : Fin 128) (q : Fin 512) :
    FloatOps.matmul dot_S2000x128_S2000x512_S128x512_0_0_1_1_n_n none A B (constant (F := Ideal) S128x512 .f32 0x00000000#32) (ix2 b q)
      = ∑ r : Fin 2000, A (ix2 r b) * B (ix2 r q) := by
  rw [Ideal.matmul_constant_zero_apply, ← Equiv.sum_comp (contrEquiv1 dot_S2000x128_S2000x512_S128x512_0_0_1_1_n_n 2000 rfl rfl).symm]
  refine Finset.sum_congr rfl fun r _ => ?_
  have hr := contrEquiv1_symm_val dot_S2000x128_S2000x512_S128x512_0_0_1_1_n_n 2000 rfl rfl r
  have el : dot_S2000x128_S2000x512_S128x512_0_0_1_1_n_n.lhsIdx (ix2 b q) ((contrEquiv1 dot_S2000x128_S2000x512_S128x512_0_0_1_1_n_n 2000 rfl rfl).symm r) = ix2 r b := funext fun a => Fin.ext (by
    match a with
    | ⟨0, _⟩ => exact (lhs_dot_0 _ _).trans hr
    | ⟨1, _⟩ => exact lhs_dot_1 _ _)
  have er : dot_S2000x128_S2000x512_S128x512_0_0_1_1_n_n.rhsIdx (ix2 b q) ((contrEquiv1 dot_S2000x128_S2000x512_S128x512_0_0_1_1_n_n 2000 rfl rfl).symm r) = ix2 r q := funext fun a => Fin.ext (by
    match a with
    | ⟨0, _⟩ => exact (rhs_dot_0 _ _).trans hr
    | ⟨1, _⟩ => exact rhs_dot_1 _ _)
  rw [el, er]

/-! ## The stored values -/

/-- The block an accumulator is reset to is zero everywhere. -/
theorem reset_h_apply (y : S128x512.Idx) : k0_pay1 (F := Ideal) y = 0 := by
  unfold k0_pay1
  simp only [shapeCast_self, broadcast_apply]
  exact zero_word

theorem reset_a_apply (y : S128x512.Idx) : k0_pay2 (F := Ideal) y = 0 := by
  unfold k0_pay2
  simp only [shapeCast_self, broadcast_apply]
  exact zero_word

/-- One tile step of the first accumulator, at row `b`, column `q`: the old entry plus the tile's contraction of the
    transposed input block `v3` with the masked weights `v6 · v7`. -/
theorem step_h_apply (v3 : Vec Ideal S2000x128 .f32) (v6 v7 : Vec Ideal S2000x512 .f32) (v14 : Vec Ideal S128x512 .f32)
    (b : Fin 128) (q : Fin 512) :
    k0_pay4 v3 v6 v7 v14 (ix2 b q) = v14 (ix2 b q) + ∑ r : Fin 2000, v3 (ix2 r b) * (v6 (ix2 r q) * v7 (ix2 r q)) := by
  unfold k0_pay4 k0_pay3
  simp only [shapeCast_self, addf_apply, matmul]
  rw [tile_dot_apply]
  rfl

/-- One tile step of the second accumulator. -/
theorem step_a_apply (v3 : Vec Ideal S2000x128 .f32) (v10 : Vec Ideal S2000x512 .f32) (v19 : Vec Ideal S128x512 .f32)
    (b : Fin 128) (q : Fin 512) :
    k0_pay5 v3 v10 v19 (ix2 b q) = v19 (ix2 b q) + ∑ r : Fin 2000, v3 (ix2 r b) * v10 (ix2 r q) := by
  unfold k0_pay5 k0_pay3
  simp only [shapeCast_self, addf_apply, matmul]
  rw [tile_dot_apply]
  rfl

/-- The gate: the logistic of the second accumulator plus its bias row. -/
theorem gate_apply (v59 : Vec Ideal S128x512 .f32) (v60 : Vec Ideal S1x512 .f32) (b : Fin 128) (q : Fin 512) :
    k0_pay6 v59 v60 (ix2 b q) = Ideal.logistic (v59 (ix2 b q) + v60 (ix2 (0 : Fin 1) q)) := by
  unfold k0_pay6
  simp only [shapeCast_self, logistic_at, addf_apply, broadcastTo_1b_ab_apply]

/-- The gated activation: column `q` of the first accumulator plus its bias, normalised over the 128 rows, mapped by
    `· γ + β` and `tanh`, times the gate. -/
theorem gated_apply (v27 : Vec Ideal S128x512 .f32) (v28 v50 v54 : Vec Ideal S1x512 .f32) (v59 : Vec Ideal S128x512 .f32)
    (v60 : Vec Ideal S1x512 .f32) (b : Fin 128) (q : Fin 512) :
    k0_pay7 v27 v28 v50 v54 v59 v60 (ix2 b q)
      = Cert.GateSpec.gated (fun b' => v27 (ix2 b' q) + v28 (ix2 (0 : Fin 1) q)) (v50 (ix2 (0 : Fin 1) q))
          (v54 (ix2 (0 : Fin 1) q)) (v59 (ix2 b q) + v60 (ix2 (0 : Fin 1) q)) b := by
  unfold k0_pay7 Cert.GateSpec.gated Cert.GateSpec.normed Cert.GateSpec.var Cert.GateSpec.mean
  simp only [multiReduction]
  simp only [shapeCast_self, mulf_apply, addf_apply, subf_apply, divf_apply, tanh_at, rsqrt_at,
    broadcast_apply, broadcastTo_1b_ab_apply, shapeCast_a_1a_apply, gate_apply]
  rw [colsum_apply, colsum_apply]
  simp only [shapeCast_self, mulf_apply, addf_apply, subf_apply, divf_apply, tanh_at, rsqrt_at,
    broadcast_apply, broadcastTo_1b_ab_apply, shapeCast_a_1a_apply, gate_apply]
  rw [colsum_apply]
  simp only [shapeCast_self, mulf_apply, addf_apply, subf_apply, divf_apply, tanh_at, rsqrt_at,
    broadcast_apply, broadcastTo_1b_ab_apply, shapeCast_a_1a_apply, gate_apply]
  rfl

end Cert.KernelIdeal.PayAt

end
-- ==== Proof.GeneSum.lean ====
/-
  A sum over twenty thousand positions taken ten tiles of two thousand at a time.

  For two families `x g` and `w g` of extended reals indexed by `g < 20000`, the contraction `∑ g, x g * w g` may be
  accumulated tile by tile: start from nothing, and for `k = 0, …, 9` add `∑ r < 2000, x (2000 k + r) * w (2000 k + r)`.
  Addition of extended reals is commutative and associative, so no finiteness is needed: only the index set of the
  sum is cut into consecutive intervals. The summand is extended by `0` beyond the last position so that prefixes are
  sums over initial segments of the naturals.
-/
import Idealize.ShloMosaic.PureOps.Ideal

noncomputable section

open scoped BigOperators

namespace Cert.GeneSum

/-- The product at position `g`, and `0` beyond the last position. -/
def term (x w : Fin 20000 → EReal) (g : ℕ) : EReal :=
  if h : g < 20000 then x ⟨g, h⟩ * w ⟨g, h⟩ else 0

theorem term_of_lt (x w : Fin 20000 → EReal) {g : ℕ} (h : g < 20000) : term x w g = x ⟨g, h⟩ * w ⟨g, h⟩ :=
  dif_pos h

/-- The sum of the first `n` products. -/
def prefixSum (x w : Fin 20000 → EReal) (n : ℕ) : EReal := ∑ g ∈ Finset.range n, term x w g

theorem prefixSum_zero (x w : Fin 20000 → EReal) : prefixSum x w 0 = 0 := by
  simp [prefixSum]

/-- One more tile: the prefix of length `n + 2000` is the prefix of length `n` plus the tile's two thousand products. -/
theorem prefixSum_tile (x w : Fin 20000 → EReal) (n : ℕ) :
    prefixSum x w (n + 2000) = prefixSum x w n + ∑ r : Fin 2000, term x w (n + r.val) := by
  unfold prefixSum
  rw [Finset.sum_range_add]
  exact congrArg (_ + ·) (Finset.sum_range fun r => term x w (n + r))

/-- The whole prefix is the contraction over all positions. -/
theorem prefixSum_all (x w : Fin 20000 → EReal) : prefixSum x w 20000 = ∑ g : Fin 20000, x g * w g := by
  unfold prefixSum
  rw [Finset.sum_range]
  exact Finset.sum_congr rfl fun g _ => term_of_lt x w g.isLt

/-- One accumulation step. If `acc` is the prefix over the first `k` tiles and `xb`, `wb` are the two families restricted to
    tile `k` (position `2000 k + r` read at `r`), then `acc` plus the tile's contraction is the prefix over `k + 1` tiles. -/
theorem prefixSum_step (x w : Fin 20000 → EReal) (k : ℕ) (hk : k < 10) (xb wb : Fin 2000 → EReal)
    (hx : ∀ (r : Fin 2000) (g : Fin 20000), g.val = 2000 * k + r.val → xb r = x g)
    (hw : ∀ (r : Fin 2000) (g : Fin 20000), g.val = 2000 * k + r.val → wb r = w g)
    (acc : EReal) (hacc : acc = prefixSum x w (2000 * k)) :
    acc + ∑ r : Fin 2000, xb r * wb r = prefixSum x w (2000 * (k + 1)) := by
  rw [show 2000 * (k + 1) = 2000 * k + 2000 by ring, prefixSum_tile, hacc]
  refine congrArg (_ + ·) (Finset.sum_congr rfl fun r _ => ?_)
  have hlt : 2000 * k + r.val < 20000 := by have := r.isLt; omega
  rw [term_of_lt x w hlt, hx r ⟨_, hlt⟩ rfl, hw r ⟨_, hlt⟩ rfl]

end Cert.GeneSum
-- ==== Proof.Accum.lean ====
import proofs.«140083_j4827543241281_1_alg».proof.Proof.Gen.KernelIdeal.Frame
import Idealize.ShloMosaic.Lib.Pipeline.Value
import Idealize.ShloMosaic.Lib.Tactic
import proofs.«140083_j4827543241281_1_alg».proof.Proof.Pieces
import proofs.«140083_j4827543241281_1_alg».proof.Proof.Blocks
import proofs.«140083_j4827543241281_1_alg».proof.Proof.PayAt
import proofs.«140083_j4827543241281_1_alg».proof.Proof.GeneSum
import proofs.«140083_j4827543241281_1_alg».proof.Proof.GateSpec
import Idealize.ShloMosaic.Lib.ValueIdx

noncomputable section

open Idealize.ShloMosaic Idealize.ShloMosaic.TcCoe Idealize.SL.Sem
open Idealize.ShloMosaic.Pipeline (Dat)

open scoped BigOperators

/-! The two carried accumulators, point by point. At grid point `t = 10·π + κ` the first accumulator holds, at row `b` and
    column `q`, the sum of the first `2000 (κ + 1)` products of the inputs' row `b` with column `512π + q` of the masked
    weights; the second the same with the attention weights. By induction on the point: a tile's first point starts
    from the zero block, every other point from what the point before left. -/
namespace Cert.KernelIdeal.Accum
open Cert.KernelIdeal Cert.KernelIdeal.Gen Idealize.ShloMosaic.ValueIdx Cert.GeneSum
variable (m : (ℓ : Loc nD τ sig) → Buf (Elt Ideal) ℓ)

/-! ## The argument arrays by coordinates -/

abbrev inputs (c : Dev nD) (b : Fin 128) (g : Fin 20000) : EReal := m ((c : Thread nD τ).loc main_arg0) (ix2 b g)
abbrev mapp (c : Dev nD) (g : Fin 20000) (p : Fin 4096) : EReal := m ((c : Thread nD τ).loc main_arg1) (ix2 g p)
abbrev kern (c : Dev nD) (g : Fin 20000) (p : Fin 4096) : EReal := m ((c : Thread nD τ).loc main_arg2) (ix2 g p)
abbrev att (c : Dev nD) (g : Fin 20000) (p : Fin 4096) : EReal := m ((c : Thread nD τ).loc main_arg4) (ix2 g p)
abbrev bias (c : Dev nD) (p : Fin 4096) : EReal := m ((c : Thread nD τ).loc main_arg3) (ix1 p)
abbrev attb (c : Dev nD) (p : Fin 4096) : EReal := m ((c : Thread nD τ).loc main_arg5) (ix1 p)
abbrev gamma (c : Dev nD) (p : Fin 4096) : EReal := m ((c : Thread nD τ).loc main_arg6) (ix1 p)
abbrev beta (c : Dev nD) (p : Fin 4096) : EReal := m ((c : Thread nD τ).loc main_arg7) (ix1 p)

/-! ## The blocks at a point, at their literal types -/

abbrev xb (c : Dev nD) (t : Fin cfg0.N) : Vec Ideal S2000x128 .f32 := iblk m c 0 t
abbrev mb (c : Dev nD) (t : Fin cfg0.N) : Vec Ideal S2000x512 .f32 := iblk m c 1 t
abbrev kb (c : Dev nD) (t : Fin cfg0.N) : Vec Ideal S2000x512 .f32 := iblk m c 2 t
abbrev ab (c : Dev nD) (t : Fin cfg0.N) : Vec Ideal S2000x512 .f32 := iblk m c 3 t

/-- What the first accumulator holds after point `n`. -/
abbrev accH (c : Dev nD) (n : ℕ) (hn : n < cfg0.N) : Vec Ideal S128x512 .f32 := (outsAt0 m c n hn).2.2.1
/-- What the second accumulator holds after point `n`. -/
abbrev accA (c : Dev nD) (n : ℕ) (hn : n < cfg0.N) : Vec Ideal S128x512 .f32 := (outsAt0 m c n hn).2.2.2

/-- At a tile's first point both accumulators are one step from the zero block. -/
theorem acc_first (c : Dev nD) (t : Fin cfg0.N) (h0 : t.val % 10 = 0) :
    accH m c t.val t.isLt = k0_pay4 (xb m c t) (kb m c t) (mb m c t) (k0_pay1 (F := Ideal))
    ∧ accA m c t.val t.isLt = k0_pay5 (xb m c t) (ab m c t) (k0_pay2 (F := Ideal)) := by
  have h1 : ¬t.val % 10 = 9 := by omega
  unfold accH accA
  rw [outsAt0_A m c t h0 h1]
  dsimp only
  exact ⟨Pieces.accH_first .., Pieces.accA_first ..⟩

/-- At every other point each accumulator is one step from what the point before left. -/
theorem acc_next (c : Dev nD) (t : Fin cfg0.N) (h0 : ¬t.val % 10 = 0) :
    accH m c t.val t.isLt = k0_pay4 (xb m c t) (kb m c t) (mb m c t) (accH m c (t.val - 1) (Nat.lt_of_le_of_lt (Nat.sub_le _ _) t.isLt))
    ∧ accA m c t.val t.isLt = k0_pay5 (xb m c t) (ab m c t) (accA m c (t.val - 1) (Nat.lt_of_le_of_lt (Nat.sub_le _ _) t.isLt)) := by
  unfold accH accA
  by_cases h1 : t.val % 10 = 9
  · rw [outsAt0_C m c t h0 h1]
    dsimp only
    exact ⟨Pieces.accH_last .., Pieces.accA_last ..⟩
  · rw [outsAt0_B m c t h0 h1]
    dsimp only
    exact ⟨Pieces.accH_mid .., Pieces.accA_mid ..⟩

/-! ## One step, read at an entry -/

/-- A step of the first accumulator at point `t`, entry (`b`, `q`), column `p = 512π + q` of the arrays: from the prefix
    over `κ` tiles to the prefix over `κ + 1`. -/
theorem step_H (c : Dev nD) (t : Fin cfg0.N) (b : Fin 128) (q : Fin 512) (p : Fin 4096)
    (hp : p.val = 512 * (t.val / 10) + q.val) (acc : Vec Ideal S128x512 .f32)
    (hacc : acc (ix2 b q) = prefixSum (fun g => inputs m c b g) (fun g => kern m c g p * mapp m c g p) (2000 * (t.val % 10))) :
    k0_pay4 (xb m c t) (kb m c t) (mb m c t) acc (ix2 b q)
      = prefixSum (fun g => inputs m c b g) (fun g => kern m c g p * mapp m c g p) (2000 * (t.val % 10 + 1)) := by
  refine (PayAt.step_h_apply (xb m c t) (kb m c t) (mb m c t) acc b q).trans ?_
  exact prefixSum_step _ _ (t.val % 10) (Nat.mod_lt _ (by decide)) (fun r => xb m c t (ix2 r b))
    (fun r => kb m c t (ix2 r q) * mb m c t (ix2 r q))
    (fun r g hg => Blocks.xblk_apply m c t r b g hg)
    (fun r g hg => congrArg₂ (· * ·) (Blocks.kernblk_apply m c t r q g p hg hp) (Blocks.mappblk_apply m c t r q g p hg hp))
    _ hacc

/-- A step of the second accumulator, likewise. -/
theorem step_A (c : Dev nD) (t : Fin cfg0.N) (b : Fin 128) (q : Fin 512) (p : Fin 4096)
    (hp : p.val = 512 * (t.val / 10) + q.val) (acc : Vec Ideal S128x512 .f32)
    (hacc : acc (ix2 b q) = prefixSum (fun g => inputs m c b g) (fun g => att m c g p) (2000 * (t.val % 10))) :
    k0_pay5 (xb m c t) (ab m c t) acc (ix2 b q)
      = prefixSum (fun g => inputs m c b g) (fun g => att m c g p) (2000 * (t.val % 10 + 1)) := by
  refine (PayAt.step_a_apply (xb m c t) (ab m c t) acc b q).trans ?_
  exact prefixSum_step _ _ (t.val % 10) (Nat.mod_lt _ (by decide)) (fun r => xb m c t (ix2 r b))
    (fun r => ab m c t (ix2 r q))
    (fun r g hg => Blocks.xblk_apply m c t r b g hg)
    (fun r g hg => Blocks.attblk_apply m c t r q g p hg hp)
    _ hacc

/-! ## The invariant -/

/-- After point `n = 10π + κ` both accumulators hold, at (`b`, `q`), the prefix over `κ + 1` tiles for column `512π + q`. -/
theorem acc_inv (c : Dev nD) : ∀ (n : ℕ) (hn : n < cfg0.N) (b : Fin 128) (q : Fin 512) (p : Fin 4096),
    p.val = 512 * (n / 10) + q.val →
    accH m c n hn (ix2 b q) = prefixSum (fun g => inputs m c b g) (fun g => kern m c g p * mapp m c g p) (2000 * (n % 10 + 1))
    ∧ accA m c n hn (ix2 b q) = prefixSum (fun g => inputs m c b g) (fun g => att m c g p) (2000 * (n % 10 + 1)) := by
  intro n
  induction n with
  | zero =>
    intro hn b q p hp
    obtain ⟨eH, eA⟩ := acc_first m c ⟨0, hn⟩ rfl
    refine ⟨(congrFun eH (ix2 b q)).trans ?_, (congrFun eA (ix2 b q)).trans ?_⟩
    · exact step_H m c ⟨0, hn⟩ b q p hp _ (by rw [PayAt.reset_h_apply]; exact (prefixSum_zero _ _).symm)
    · exact step_A m c ⟨0, hn⟩ b q p hp _ (by rw [PayAt.reset_a_apply]; exact (prefixSum_zero _ _).symm)
  | succ n ih =>
    intro hn b q p hp
    by_cases h0 : (n + 1) % 10 = 0
    · obtain ⟨eH, eA⟩ := acc_first m c ⟨n + 1, hn⟩ h0
      refine ⟨(congrFun eH (ix2 b q)).trans ?_, (congrFun eA (ix2 b q)).trans ?_⟩
      · exact step_H m c ⟨n + 1, hn⟩ b q p hp _ (by
          rw [PayAt.reset_h_apply]; show (0 : EReal) = prefixSum _ _ (2000 * ((n + 1) % 10)); rw [h0]; exact (prefixSum_zero _ _).symm)
      · exact step_A m c ⟨n + 1, hn⟩ b q p hp _ (by
          rw [PayAt.reset_a_apply]; show (0 : EReal) = prefixSum _ _ (2000 * ((n + 1) % 10)); rw [h0]; exact (prefixSum_zero _ _).symm)
    · obtain ⟨eH, eA⟩ := acc_next m c ⟨n + 1, hn⟩ h0
      have hq : p.val = 512 * (n / 10) + q.val := by rw [hp]; omega
      have hk : n % 10 + 1 = (n + 1) % 10 := by omega
      obtain ⟨iH, iA⟩ := ih (Nat.lt_of_succ_lt hn) b q p hq
      refine ⟨(congrFun eH (ix2 b q)).trans ?_, (congrFun eA (ix2 b q)).trans ?_⟩
      · exact step_H m c ⟨n + 1, hn⟩ b q p hp _ (by
          show accH m c n _ (ix2 b q) = prefixSum _ _ (2000 * ((n + 1) % 10)); rw [← hk]; exact iH)
      · exact step_A m c ⟨n + 1, hn⟩ b q p hp _ (by
          show accA m c n _ (ix2 b q) = prefixSum _ _ (2000 * ((n + 1) % 10)); rw [← hk]; exact iA)

end Cert.KernelIdeal.Accum

end
-- ==== Proof.Outputs.lean ====
import proofs.«140083_j4827543241281_1_alg».proof.Proof.Gen.KernelIdeal.Frame
import Idealize.ShloMosaic.Lib.Pipeline.Value
import Idealize.ShloMosaic.Lib.Tactic
import proofs.«140083_j4827543241281_1_alg».proof.Proof.Accum
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

open scoped BigOperators

/-! The two result arrays of the call. A column tile's last point (`κ = 9`) has both accumulators at the full contraction,
    normalises, squashes and gates, and writes the two [128, 512] blocks back at columns `512π …`; the eight column tiles
    cover the [128, 4096] arrays, so each array ends at the layer's closed form of the arguments, entry by entry. The
    decision head is the host lines after the call applied to the first of them. -/
namespace Cert.KernelIdeal.Outputs
open Cert.KernelIdeal Cert.KernelIdeal.Gen Idealize.ShloMosaic.ValueIdx Cert.GeneSum Cert.KernelIdeal.Accum
variable (m : (ℓ : Loc nD τ sig) → Buf (Elt Ideal) ℓ) (ρ : Dev nD → PrngReg)

/-- The first result, entry by entry. -/
def outcomeArr (c : Dev nD) : Vec Ideal S128x4096 .f32 := fun i =>
  Cert.GateSpec.outcomeAt (inputs m c) (mapp m c) (kern m c) (att m c) (bias m c) (attb m c) (gamma m c) (beta m c) (i 0) (i 1)

/-- The attention result, entry by entry. -/
def attnArr (c : Dev nD) : Vec Ideal S128x4096 .f32 := fun i =>
  Cert.GateSpec.attnAt (inputs m c) (att m c) (attb m c) (i 0) (i 1)

abbrev bb (c : Dev nD) (t : Fin cfg0.N) : Vec Ideal S1x512 .f32 := iblk m c 4 t
abbrev attbb (c : Dev nD) (t : Fin cfg0.N) : Vec Ideal S1x512 .f32 := iblk m c 5 t
abbrev gb (c : Dev nD) (t : Fin cfg0.N) : Vec Ideal S1x512 .f32 := iblk m c 6 t
abbrev betab (c : Dev nD) (t : Fin cfg0.N) : Vec Ideal S1x512 .f32 := iblk m c 7 t

/-- At a tile's last point the two output blocks are the epilogue's payloads of the accumulators just updated. -/
theorem out_last (c : Dev nD) (t : Fin cfg0.N) (h9 : t.val % 10 = 9) :
    (outsAt0 m c t.val t.isLt).1
        = k0_pay7 (accH m c t.val t.isLt) (bb m c t) (gb m c t) (betab m c t) (accA m c t.val t.isLt) (attbb m c t)
    ∧ (outsAt0 m c t.val t.isLt).2.1 = k0_pay6 (accA m c t.val t.isLt) (attbb m c t) := by
  have h0 : ¬t.val % 10 = 0 := by omega
  unfold accH accA
  rw [outsAt0_C m c t h0 h9]
  dsimp only
  rw [Pieces.outcome_last, Pieces.attn_last, Pieces.accH_last, Pieces.accA_last]
  exact ⟨rfl, rfl⟩

/-- At a tile's last point the accumulators hold the full contractions. -/
theorem acc_full (c : Dev nD) (t : Fin cfg0.N) (h9 : t.val % 10 = 9) (b : Fin 128) (q : Fin 512) (p : Fin 4096)
    (hp : p.val = 512 * (t.val / 10) + q.val) :
    accH m c t.val t.isLt (ix2 b q) = Cert.GateSpec.dot (inputs m c) (fun g p' => kern m c g p' * mapp m c g p') b p
    ∧ accA m c t.val t.isLt (ix2 b q) = Cert.GateSpec.dot (inputs m c) (att m c) b p := by
  obtain ⟨iH, iA⟩ := acc_inv m c t.val t.isLt b q p hp
  have e : 2000 * (t.val % 10 + 1) = 20000 := by rw [h9]
  rw [e] at iH iA
  exact ⟨iH.trans (prefixSum_all _ _), iA.trans (prefixSum_all _ _)⟩

/-- The first output block at a tile's last point, at an entry. -/
theorem outcome_entry (c : Dev nD) (t : Fin cfg0.N) (h9 : t.val % 10 = 9) (b : Fin 128) (q : Fin 512) (p : Fin 4096)
    (hp : p.val = 512 * (t.val / 10) + q.val) :
    (outsAt0 m c t.val t.isLt).1 (ix2 b q) = outcomeArr m c (ix2 b p) := by
  refine (congrFun (out_last m c t h9).1 (ix2 b q)).trans ?_
  refine (PayAt.gated_apply (accH m c t.val t.isLt) (bb m c t) (gb m c t) (betab m c t) (accA m c t.val t.isLt) (attbb m c t) b q).trans ?_
  have eH : (fun b' => accH m c t.val t.isLt (ix2 b' q) + bb m c t (ix2 (0 : Fin 1) q))
      = fun b' => Cert.GateSpec.dot (inputs m c) (fun g p' => kern m c g p' * mapp m c g p') b' p + bias m c p :=
    funext fun b' => congrArg₂ (· + ·) (acc_full m c t h9 b' q p hp).1 (Blocks.biasblk_apply m c t q p hp)
  have eA : accA m c t.val t.isLt (ix2 b q) + attbb m c t (ix2 (0 : Fin 1) q)
      = Cert.GateSpec.dot (inputs m c) (att m c) b p + attb m c p :=
    congrArg₂ (· + ·) (acc_full m c t h9 b q p hp).2 (Blocks.attbblk_apply m c t q p hp)
  have eG : gb m c t (ix2 (0 : Fin 1) q) = gamma m c p := Blocks.gammablk_apply m c t q p hp
  have eB : betab m c t (ix2 (0 : Fin 1) q) = beta m c p := Blocks.betablk_apply m c t q p hp
  rw [eH, eA, eG, eB]
  rfl

/-- The second output block at a tile's last point, at an entry. -/
theorem attn_entry (c : Dev nD) (t : Fin cfg0.N) (h9 : t.val % 10 = 9) (b : Fin 128) (q : Fin 512) (p : Fin 4096)
    (hp : p.val = 512 * (t.val / 10) + q.val) :
    (outsAt0 m c t.val t.isLt).2.1 (ix2 b q) = attnArr m c (ix2 b p) := by
  refine (congrFun (out_last m c t h9).2 (ix2 b q)).trans ?_
  refine (PayAt.gate_apply (accA m c t.val t.isLt) (attbb m c t) b q).trans ?_
  have eA : accA m c t.val t.isLt (ix2 b q) + attbb m c t (ix2 (0 : Fin 1) q)
      = Cert.GateSpec.dot (inputs m c) (att m c) b p + attb m c p :=
    congrArg₂ (· + ·) (acc_full m c t h9 b q p hp).2 (Blocks.attbblk_apply m c t q p hp)
  rw [eA]
  rfl

/-! ## The blocks written back cover the arrays -/

/-- An index of a result array is under point `t`'s block iff each coordinate is in the block's range. -/
theorem mem_blk_outcome (t : Fin cfg0.N) (i : S128x4096.Idx) :
    i ∈ ((cfg0.win 8).blk t).view.set ↔ ∀ a : Fin 2, win0_8.index t a * S128x512.size a ≤ (i a).val ∧ (i a).val < win0_8.index t a * S128x512.size a + S128x512.size a := by
  show i ∈ ((View.whole main_v5_0).slice (win0_8.rect t)).set ↔ _
  rw [View.set_slice_whole, Rect.mem_set_unit]
  exact Iff.rfl

theorem mem_blk_attn (t : Fin cfg0.N) (i : S128x4096.Idx) :
    i ∈ ((cfg0.win 9).blk t).view.set ↔ ∀ a : Fin 2, win0_9.index t a * S128x512.size a ≤ (i a).val ∧ (i a).val < win0_9.index t a * S128x512.size a + S128x512.size a := by
  show i ∈ ((View.whole main_v5_1).slice (win0_9.rect t)).set ↔ _
  rw [View.set_slice_whole, Rect.mem_set_unit]
  exact Iff.rfl

/-- Column `j` lies in column tile `j / 512`, whose last point writes the block back. -/
theorem cover_outcome (i : S128x4096.Idx) : ∃ t : Fin cfg0.N, (cfg0.win 8).flush t = true ∧ i ∈ ((cfg0.win 8).blk t).view.set := by
  have h0 : (i 0).val < 128 := (i 0).isLt
  have h1 : (i 1).val < 4096 := (i 1).isLt
  have hN : cfg0.N = 80 := N_0
  refine ⟨⟨10 * ((i 1).val / 512) + 9, by rw [hN]; omega⟩, (flush0_8 _).mpr (by show (10 * ((i 1).val / 512) + 9) % 10 = 9; omega), ?_⟩
  rw [mem_blk_outcome]
  intro a
  match a with
  | ⟨0, _⟩ =>
    show win0_8.index _ (0 : Fin 2) * 128 ≤ (i 0).val ∧ (i 0).val < win0_8.index _ (0 : Fin 2) * 128 + 128
    rw [(Blocks.idx_out _).1]; omega
  | ⟨1, _⟩ =>
    show win0_8.index _ (1 : Fin 2) * 512 ≤ (i 1).val ∧ (i 1).val < win0_8.index _ (1 : Fin 2) * 512 + 512
    rw [(Blocks.idx_out _).2]
    show (10 * ((i 1).val / 512) + 9) / 10 * 512 ≤ (i 1).val ∧ (i 1).val < (10 * ((i 1).val / 512) + 9) / 10 * 512 + 512
    omega

theorem cover_attn (i : S128x4096.Idx) : ∃ t : Fin cfg0.N, (cfg0.win 9).flush t = true ∧ i ∈ ((cfg0.win 9).blk t).view.set := by
  have h0 : (i 0).val < 128 := (i 0).isLt
  have h1 : (i 1).val < 4096 := (i 1).isLt
  have hN : cfg0.N = 80 := N_0
  refine ⟨⟨10 * ((i 1).val / 512) + 9, by rw [hN]; omega⟩, (flush0_9 _).mpr (by show (10 * ((i 1).val / 512) + 9) % 10 = 9; omega), ?_⟩
  rw [mem_blk_attn]
  intro a
  match a with
  | ⟨0, _⟩ =>
    show win0_9.index _ (0 : Fin 2) * 128 ≤ (i 0).val ∧ (i 0).val < win0_9.index _ (0 : Fin 2) * 128 + 128
    rw [(Blocks.idx_attn _).1]; omega
  | ⟨1, _⟩ =>
    show win0_9.index _ (1 : Fin 2) * 512 ≤ (i 1).val ∧ (i 1).val < win0_9.index _ (1 : Fin 2) * 512 + 512
    rw [(Blocks.idx_attn _).2]
    show (10 * ((i 1).val / 512) + 9) / 10 * 512 ≤ (i 1).val ∧ (i 1).val < (10 * ((i 1).val / 512) + 9) / 10 * 512 + 512
    omega

/-! ## What a write-back writes, and the arrays after the call -/

/-- What a tile's last point writes back into the first result is its block of `outcomeArr`. -/
theorem flushed_outcome (c : Dev nD) (t : Fin cfg0.N) (hf : (cfg0.win 8).flush t = true) :
    (dats m 0 c).flushed 8 t = ((cfg0.win 8).blk t).view.read (Elt Ideal) (outcomeArr m c) := by
  have h9 : t.val % 10 = 9 := (flush0_8 t).mp hf
  have hN : t.val < 80 := lt_of_lt_of_eq t.isLt N_0
  show (cfg0.win 8).cut (grid0.coords t) ((dats m 0 c).after 8 t) = _
  rw [after0_8]
  have hblk : ∀ (b : Fin 128) (q : Fin 512) (p : Fin 4096), p.val = 512 * (t.val / 10) + q.val →
      (outsAt0 m c t.val t.isLt).1 (ix2 b q) = outcomeArr m c (ix2 b p) := fun b q p hp => outcome_entry m c t h9 b q p hp
  generalize (outsAt0 m c t.val t.isLt).1 = blk at hblk ⊢
  funext y
  rw [View.read_apply]
  have hy0 : (y 0).val < 128 := (y 0).isLt
  have hy1 : (y 1).val < 512 := (y 1).isLt
  have hemb : ((cfg0.win 8).blk t).view.emb y = ix2 (⟨(y 0).val, hy0⟩ : Fin 128) (⟨512 * (t.val / 10) + (y 1).val, by omega⟩ : Fin 4096) := by
    funext a
    apply Fin.ext
    match a with
    | ⟨0, _⟩ => show win0_8.index t (0 : Fin 2) * 128 + 1 * (y 0).val = (y 0).val; rw [(Blocks.idx_out t).1]; omega
    | ⟨1, _⟩ => show win0_8.index t (1 : Fin 2) * 512 + 1 * (y 1).val = 512 * (t.val / 10) + (y 1).val; rw [(Blocks.idx_out t).2]; omega
  rw [hemb]
  have hy : y = ix2 (⟨(y 0).val, hy0⟩ : Fin 128) (⟨(y 1).val, hy1⟩ : Fin 512) := funext fun a => by
    match a with
    | ⟨0, _⟩ => rfl
    | ⟨1, _⟩ => rfl
  have key := hblk ⟨(y 0).val, hy0⟩ ⟨(y 1).val, hy1⟩ ⟨512 * (t.val / 10) + (y 1).val, by omega⟩ rfl
  rw [← hy] at key
  exact key

set_option maxRecDepth 200000 in
/-- What a tile's last point writes back into the attention result is its block of `attnArr`. -/
theorem flushed_attn (c : Dev nD) (t : Fin cfg0.N) (hf : (cfg0.win 9).flush t = true) :
    (dats m 0 c).flushed 9 t = ((cfg0.win 9).blk t).view.read (Elt Ideal) (attnArr m c) := by
  have h9 : t.val % 10 = 9 := (flush0_9 t).mp hf
  have hN : t.val < 80 := lt_of_lt_of_eq t.isLt N_0
  show (cfg0.win 9).cut (grid0.coords t) ((dats m 0 c).after 9 t) = _
  rw [after0_9]
  have hblk : ∀ (b : Fin 128) (q : Fin 512) (p : Fin 4096), p.val = 512 * (t.val / 10) + q.val →
      (outsAt0 m c t.val t.isLt).2.1 (ix2 b q) = attnArr m c (ix2 b p) := fun b q p hp => attn_entry m c t h9 b q p hp
  generalize (outsAt0 m c t.val t.isLt).2.1 = blk at hblk ⊢
  funext y
  rw [View.read_apply]
  have hy0 : (y 0).val < 128 := (y 0).isLt
  have hy1 : (y 1).val < 512 := (y 1).isLt
  have hemb : ((cfg0.win 9).blk t).view.emb y = ix2 (⟨(y 0).val, hy0⟩ : Fin 128) (⟨512 * (t.val / 10) + (y 1).val, by omega⟩ : Fin 4096) := by
    funext a
    apply Fin.ext
    match a with
    | ⟨0, _⟩ => show win0_9.index t (0 : Fin 2) * 128 + 1 * (y 0).val = (y 0).val; rw [(Blocks.idx_attn t).1]; omega
    | ⟨1, _⟩ => show win0_9.index t (1 : Fin 2) * 512 + 1 * (y 1).val = 512 * (t.val / 10) + (y 1).val; rw [(Blocks.idx_attn t).2]; omega
  rw [hemb]
  have hy : y = ix2 (⟨(y 0).val, hy0⟩ : Fin 128) (⟨(y 1).val, hy1⟩ : Fin 512) := funext fun a => by
    match a with
    | ⟨0, _⟩ => rfl
    | ⟨1, _⟩ => rfl
  have key := hblk ⟨(y 0).val, hy0⟩ ⟨(y 1).val, hy1⟩ ⟨512 * (t.val / 10) + (y 1).val, by omega⟩ rfl
  rw [← hy] at key
  exact key

/-- The first result array after the call. -/
theorem final_outcome (c : Dev nD) : (dats m 0 c).arrAt 8 cfg0.N = outcomeArr m c :=
  (dats m 0 c).arrAt_eq_of_cover 8 (outcomeArr m c) (flushed_outcome m c) cover_outcome

/-- The attention result array after the call. -/
theorem final_attn (c : Dev nD) : (dats m 0 c).arrAt 9 cfg0.N = attnArr m c :=
  (dats m 0 c).arrAt_eq_of_cover 9 (attnArr m c) (flushed_attn m c) cover_attn

end Cert.KernelIdeal.Outputs

end
-- ==== Proof.KernelRun.lean ====
import proofs.«140083_j4827543241281_1_alg».proof.Proof.Gen.KernelIdeal.Frame
import Idealize.ShloMosaic.Lib.Pipeline.Value
import Idealize.ShloMosaic.Lib.Tactic
import proofs.«140083_j4827543241281_1_alg».proof.Proof.Outputs
import Idealize.ShloMosaic.Lib.StableHlo.Run

noncomputable section

open Idealize.ShloMosaic Idealize.ShloMosaic.TcCoe Idealize.SL.Sem
open Idealize.ShloMosaic.Pipeline (Dat)

/-! The idealized kernel's whole run: the call's two arrays at the layer's closed form, the decision head computed from the
    first by the host lines after the call, and every argument as launched. -/
namespace Cert.KernelIdeal.Result
open Cert.KernelIdeal Cert.KernelIdeal.Gen Idealize.ShloMosaic.ValueIdx Cert.KernelIdeal.Accum Cert.KernelIdeal.Outputs
variable (m : (ℓ : Loc nD τ sig) → Buf (Elt Ideal) ℓ) (ρ : Dev nD → PrngReg)

/-- The decision head: the first result contracted with the head's weights, plus its bias broadcast over the batch. -/
def decision {F : FTy → Type} [FloatOps F] (o : Vec F S128x4096 .f32) (w : Vec F S4096x1 .f32) (b : Vec F S1 .f32) : Vec F S128x1 .f32 :=
  addf (Host.dotGeneral dot_S128x4096_S4096x1_S128x1_1_0_0_1_n_n none o w)
    (broadcastInDim S128x1 ![0, 1] bcast_S1x1_S128x1_0_1 (broadcastInDim S1x1 ![1] bcast_S1_S1x1_1 b))

theorem tail_eq (c : Dev nD) :
    Pipeline.afterTail₀ cfgs (dats m) 0 (V0 m) [hostOps1] c main_v9
      = decision (outcomeArr m c) (m ((c : Thread nD τ).loc main_arg8)) (m ((c : Thread nD τ).loc main_arg9)) := by
  unfold Pipeline.afterTail₀
  show StableHlo.after hostOps1 _ (Proc.devRef .tc main_v9) = _
  after_results
  have h8 : Pipeline.withArrays (cfgs 0).spec c (V0 m c) (fun w => (dats m 0 c).arrAt w (cfgs 0).N) (Proc.devRef .tc main_v5_0)
      = outcomeArr m c :=
    (Pipeline.withArrays_arr spec0 launch0.win.arr_inj c _ _ 8).trans (final_outcome m c)
  have hw : Pipeline.withArrays (cfgs 0).spec c (V0 m c) (fun w => (dats m 0 c).arrAt w (cfgs 0).N) (Proc.devRef .tc main_arg8)
      = m ((c : Thread nD τ).loc main_arg8) :=
    (Pipeline.withArrays_of_ne _ c (V0 m c) _ main_arg8 (by exact (by decide : ∀ w, Pipeline.arrRef spec0 w ≠ main_arg8))).trans (V_main_arg8 m c)
  have hb : Pipeline.withArrays (cfgs 0).spec c (V0 m c) (fun w => (dats m 0 c).arrAt w (cfgs 0).N) (Proc.devRef .tc main_arg9)
      = m ((c : Thread nD τ).loc main_arg9) :=
    (Pipeline.withArrays_of_ne _ c (V0 m c) _ main_arg9 (by exact (by decide : ∀ w, Pipeline.arrRef spec0 w ≠ main_arg9))).trans (V_main_arg9 m c)
  rw [h8, hw, hb]
  rfl

/-- The idealized kernel's run, read: the three results at the layer's closed form of the arguments, the arguments unchanged. -/
theorem run : θ_run defs (onTc (τ := τ) (main (F := Ideal))) ⟨m, fun _ => 0, ρ⟩ fun r => ∀ c : Dev nD,
      r.2.mem ((c.tc : Thread nD τ).loc main_v5_0) = outcomeArr m c
      ∧ r.2.mem ((c.tc : Thread nD τ).loc main_v9) = decision (outcomeArr m c) (m ((c : Thread nD τ).loc main_arg8)) (m ((c : Thread nD τ).loc main_arg9))
      ∧ r.2.mem ((c.tc : Thread nD τ).loc main_v5_1) = attnArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).1 8).trans (final_outcome m c),
      ((h c).2 main_v9 (Pipeline.mem_restRefs_of main_v9 (by decide) (by decide))).trans (tail_eq m c),
      ((h c).1 9).trans (final_attn m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Result

end
-- ==== Proof.RefLayer.lean ====
/-
  The reference program's two array results, read one entry at a time: each entry is the layer's closed form of the
  arguments' entries (the contraction over 20000 positions, the batch normalisation of a column, `tanh`, the logistic
  gate). A host reduction's initial value is the zero word, which adds nothing; the host's quotient `1 / (1 + e^(-a))`
  is the logistic function by definition.
-/
import proofs.«140083_j4827543241281_1_alg».proof.Proof.Gen.ReferenceIdeal.Read
import proofs.«140083_j4827543241281_1_alg».proof.Proof.GateSpec
import Idealize.ShloMosaic.Lib.ValueIdx
import Idealize.ShloMosaic.PureOps.Ideal.Laws

noncomputable section

open scoped BigOperators

namespace Cert.ReferenceIdeal.Layer

open Idealize.ShloMosaic Idealize.ShloMosaic.ValueIdx Cert.ReferenceIdeal Cert.ReferenceIdeal.Read

/-- The single-precision word of `1.0` denotes one. -/
theorem one_word : Ideal.ofBits .f32 0x3F800000#32 = 1 := by
  simp [Ideal.ofBits, Ideal.ieee, -EReal.coe_mul]; norm_num

/-! ### The composed index maps at an index given by its coordinates -/

theorem lidx31_ix (b : Fin 128) (p : Fin 4096) (k : Fin 20000) : lidx_main_v31 (ix2 b p) k = ix2 b k :=
  funext fun a => match a with | ⟨0, _⟩ => rfl | ⟨1, _⟩ => rfl
theorem ridx31_ix (b : Fin 128) (p : Fin 4096) (k : Fin 20000) : ridx_main_v31 (ix2 b p) k = ix2 k p :=
  funext fun a => match a with | ⟨0, _⟩ => rfl | ⟨1, _⟩ => rfl
theorem idx33_ix (b : Fin 128) (p : Fin 4096) : idx_main_v32 (idx_main_v33 (ix2 b p)) = ix1 p :=
  funext fun a => match a with | ⟨0, _⟩ => rfl
theorem lidx1_ix (b : Fin 128) (p : Fin 4096) (k : Fin 20000) : lidx_main_v1 (ix2 b p) k = ix2 b k :=
  funext fun a => match a with | ⟨0, _⟩ => rfl | ⟨1, _⟩ => rfl
theorem ridx1_ix (b : Fin 128) (p : Fin 4096) (k : Fin 20000) : ridx_main_v1 (ix2 b p) k = ix2 k p :=
  funext fun a => match a with | ⟨0, _⟩ => rfl | ⟨1, _⟩ => rfl
theorem idx3_ix (b : Fin 128) (p : Fin 4096) : idx_main_v2 (idx_main_v3 (ix2 b p)) = ix1 p :=
  funext fun a => match a with | ⟨0, _⟩ => rfl
theorem idx5_ix (p : Fin 4096) (k : Fin 128) : idx_main_v5 (ix1 p) k = ix2 k p :=
  funext fun a => match a with | ⟨0, _⟩ => rfl | ⟨1, _⟩ => rfl
theorem idx12_ix (p : Fin 4096) (k : Fin 128) : idx_main_v12 (ix1 p) k = ix2 k p :=
  funext fun a => match a with | ⟨0, _⟩ => rfl | ⟨1, _⟩ => rfl
theorem idx9_ix (b : Fin 128) (p : Fin 4096) : idx_main_v8 (idx_main_v9 (ix2 b p)) = ix1 p :=
  funext fun a => match a with | ⟨0, _⟩ => rfl
theorem idx16_ix (b : Fin 128) (p : Fin 4096) : idx_main_v15 (idx_main_v16 (ix2 b p)) = ix1 p :=
  funext fun a => match a with | ⟨0, _⟩ => rfl
theorem idx22_ix (b : Fin 128) (p : Fin 4096) : idx_main_v21 (idx_main_v22 (ix2 b p)) = ix1 p :=
  funext fun a => match a with | ⟨0, _⟩ => rfl
theorem idx25_ix (b : Fin 128) (p : Fin 4096) : idx_main_v24 (idx_main_v25 (ix2 b p)) = ix1 p :=
  funext fun a => match a with | ⟨0, _⟩ => rfl
theorem idx28_ix (b : Fin 128) (p : Fin 4096) : idx_main_v27 (idx_main_v28 (ix2 b p)) = ix1 p :=
  funext fun a => match a with | ⟨0, _⟩ => rfl

/-! ### The stages of the normalisation, one column at a time -/

section Column

variable (x0 : Vec Ideal S128x20000 .f32) (x1 x2 : Vec Ideal S20000x4096 .f32) (x3 : Vec Ideal S4096 .f32)

/-- The pre-activation: the contraction of a row of the inputs with a column of the masked weights, plus the bias. -/
theorem pre_eq (b' : Fin 128) (p : Fin 4096) :
    val_main_v4 (F := Ideal) x0 x1 x2 x3 (ix2 b' p)
      = Cert.GateSpec.dot (fun b g => x0 (ix2 b g)) (fun g p' => x2 (ix2 g p') * x1 (ix2 g p')) b' p + x3 (ix1 p) := by
  rw [val_main_v4_apply, val_main_v1_apply, val_main_v3_apply, val_main_v2_apply]
  simp only [val_main_v0_apply, lidx1_ix, ridx1_ix, idx3_ix, Ideal.addf_def, Ideal.mulf_def]
  rfl

/-- The column's mean: the reduction starts from the zero word, which adds nothing. -/
theorem mean_eq (p : Fin 4096) :
    val_main_v7 (F := Ideal) x0 x1 x2 x3 (ix1 p)
      = Cert.GateSpec.mean (fun b' => Cert.GateSpec.dot (fun b g => x0 (ix2 b g)) (fun g p' => x2 (ix2 g p') * x1 (ix2 g p')) b' p + x3 (ix1 p)) := by
  rw [val_main_v7_apply, val_main_v5_apply, val_main_v6_apply, val_main_cst_0_apply, val_main_cst_apply]
  simp only [idx5_ix, pre_eq, Ideal.hostDivf_def, Ideal.ofBits_def, Ideal.ofBits_zero_f32, zero_add]
  rfl

/-- The column's variance: the squared deviations from the mean, summed from the zero word and divided by the batch size. -/
theorem var_eq (p : Fin 4096) :
    val_main_v14 (F := Ideal) x0 x1 x2 x3 (ix1 p)
      = Cert.GateSpec.var (fun b' => Cert.GateSpec.dot (fun b g => x0 (ix2 b g)) (fun g p' => x2 (ix2 g p') * x1 (ix2 g p')) b' p + x3 (ix1 p)) := by
  rw [val_main_v14_apply, val_main_v12_apply, val_main_v13_apply, val_main_cst_2_apply, val_main_cst_1_apply]
  simp only [val_main_v11_apply, val_main_v10_apply, val_main_v9_apply, val_main_v8_apply, idx12_ix, idx9_ix, pre_eq, mean_eq,
    Ideal.hostDivf_def, Ideal.ofBits_def, Ideal.ofBits_zero_f32, zero_add, Ideal.mulf_def, Ideal.subf_def]
  rfl

end Column

/-- The attention stage at an entry: the host's quotient `1 / (1 + e^(-a))` is the logistic function of the attention
    pre-activation `a`. -/
theorem attn_at (x0 : Vec Ideal S128x20000 .f32) (x4 : Vec Ideal S20000x4096 .f32) (x5 : Vec Ideal S4096 .f32)
    (b : Fin 128) (p : Fin 4096) :
    val_main_v40 (F := Ideal) x0 x4 x5 (ix2 b p)
      = Ideal.logistic (Cert.GateSpec.dot (fun b g => x0 (ix2 b g)) (fun g p => x4 (ix2 g p)) b p + x5 (ix1 p)) := by
  rw [val_main_v40_apply, val_main_v39_apply, val_main_cst_5_apply, val_main_v38_apply, val_main_v37_apply,
    val_main_cst_4_apply, val_main_v36_apply, val_main_v35_apply, val_main_v34_apply, val_main_v31_apply,
    val_main_v33_apply, val_main_v32_apply]
  simp only [lidx31_ix, ridx31_ix, idx33_ix, Ideal.hostDivf_def, Ideal.addf_def, Ideal.hostUnary_exp_def,
    Ideal.hostNegf_def, Ideal.negf_def, Ideal.ofBits_def, one_word]
  rfl

/-- The first result (row `b`, column `p`) is the gated activation of the arguments. -/
theorem outcome_eq (x0 : Vec Ideal S128x20000 .f32) (x1 x2 : Vec Ideal S20000x4096 .f32) (x3 : Vec Ideal S4096 .f32)
    (x4 : Vec Ideal S20000x4096 .f32) (x5 x6 x7 : Vec Ideal S4096 .f32) (b : Fin 128) (p : Fin 4096) :
    val_main_v41 (F := Ideal) x0 x1 x2 x3 x4 x5 x6 x7 (ix2 b p)
      = Cert.GateSpec.outcomeAt (fun b g => x0 (ix2 b g)) (fun g p => x1 (ix2 g p)) (fun g p => x2 (ix2 g p))
          (fun g p => x4 (ix2 g p)) (fun p => x3 (ix1 p)) (fun p => x5 (ix1 p)) (fun p => x6 (ix1 p)) (fun p => x7 (ix1 p)) b p := by
  rw [val_main_v41_apply, val_main_v30_apply, val_main_v29_apply, val_main_v26_apply, val_main_v23_apply,
    val_main_v17_apply, val_main_v16_apply, val_main_v15_apply, val_main_v22_apply, val_main_v21_apply,
    val_main_v20_apply, val_main_v19_apply, val_main_v18_apply, val_main_cst_3_apply, val_main_v25_apply,
    val_main_v24_apply, val_main_v28_apply, val_main_v27_apply, attn_at]
  simp only [idx16_ix, idx22_ix, idx25_ix, idx28_ix, pre_eq, mean_eq, var_eq, Ideal.mulf_def, Ideal.addf_def,
    Ideal.subf_def, Ideal.hostUnary_tanh_def, Ideal.hostUnary_rsqrt_def, Ideal.ofBits_def]
  rfl

/-- The attention result (row `b`, column `p`) is the logistic of the attention pre-activation. -/
theorem attn_eq (x0 : Vec Ideal S128x20000 .f32) (x4 : Vec Ideal S20000x4096 .f32) (x5 : Vec Ideal S4096 .f32)
    (b : Fin 128) (p : Fin 4096) :
    val_main_v40 (F := Ideal) x0 x4 x5 (ix2 b p)
      = Cert.GateSpec.attnAt (fun b g => x0 (ix2 b g)) (fun g p => x4 (ix2 g p)) (fun p => x5 (ix1 p)) b p := by
  exact attn_at x0 x4 x5 b p

end Cert.ReferenceIdeal.Layer

end
-- ==== Proof.lean ====
/-
  The kernel computes, tile by tile, the layer its reference computes in one piece.

  The layer: `h = inputs · (kernel ∘ mapp) + bias` over 20000 positions, each of the 4096 columns of `h` normalised over
  the batch of 128 (mean, biased variance, `(h - μ)(σ² + ε)^(-1/2)`), `· γ + β`, `tanh`; the gate
  `logistic (inputs · att_kernel + att_bias)`; their product; and the decision head, the product contracted with a
  [4096, 1] weight plus a bias.

  The kernel's grid is 8 column tiles by 10 position tiles. Over a column tile's ten points two accumulators collect
  the two contractions two thousand positions at a time, starting from zero at the first point; the last point
  normalises, squashes and gates its [128, 512] blocks and writes them back. Over the extended reals a sum may be taken
  in any grouping, so after the tenth point an accumulator entry is the whole contraction (GeneSum, Accum); the epilogue
  is entry by entry the reference's (PayAt, GateSpec, RefLayer: the reference's host quotient `1 / (1 + e^(-a))` is the
  logistic function; a change of float format is the identity; the reductions' zero start adds nothing); the eight
  column tiles cover the arrays (Outputs). The decision head is the same host lines on both sides, applied to equal
  arrays (KernelRun). No finiteness of the inputs is used: only the regrouping of sums.
-/
import proofs.«140083_j4827543241281_1_alg».proof.Defs
import proofs.«140083_j4827543241281_1_alg».proof.Proof.Gen.Kernel
import proofs.«140083_j4827543241281_1_alg».proof.Proof.Gen.Kernel.Skeleton
import proofs.«140083_j4827543241281_1_alg».proof.Proof.Gen.Kernel.Launch
import proofs.«140083_j4827543241281_1_alg».proof.Proof.Gen.Kernel.Points
import proofs.«140083_j4827543241281_1_alg».proof.Proof.Gen.Kernel.Frame
import proofs.«140083_j4827543241281_1_alg».proof.Proof.Gen.KernelIdeal
import proofs.«140083_j4827543241281_1_alg».proof.Proof.Gen.KernelIdeal.Skeleton
import proofs.«140083_j4827543241281_1_alg».proof.Proof.Gen.KernelIdeal.Launch
import proofs.«140083_j4827543241281_1_alg».proof.Proof.Gen.KernelIdeal.Points
import proofs.«140083_j4827543241281_1_alg».proof.Proof.Gen.KernelIdeal.Frame
import proofs.«140083_j4827543241281_1_alg».proof.Proof.Gen.ReferenceIdeal
import proofs.«140083_j4827543241281_1_alg».proof.Proof.Gen.ReferenceIdeal.Run
import proofs.«140083_j4827543241281_1_alg».proof.Proof.Gen.ReferenceIdeal.Read
import proofs.«140083_j4827543241281_1_alg».proof.Proof.Gen.Pre_finite_inputs
import proofs.«140083_j4827543241281_1_alg».proof.Proof.KernelRun
import proofs.«140083_j4827543241281_1_alg».proof.Proof.RefLayer
import Idealize.ShloMosaic.Adequacy
import Idealize.ShloMosaic.Init

noncomputable section

namespace Cert.Proof

open Idealize.ShloMosaic Idealize.ShloMosaic.ValueIdx Idealize.SL.Sem
open Cert.KernelIdeal.Outputs Cert.KernelIdeal.Result

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both programs end with the layer's closed form of arguments that agree: the two arrays entry by entry, the
    decision head as the same host lines of equal arrays. -/
theorem algebraic : Cert.algebraic_KernelIdeal_ReferenceIdeal := by
  intro m ρ m' ρ' _ hagree
  refine ⟨fun c => outcomeArr m c,
    fun c => decision (outcomeArr m c) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    fun c => attnArr m c, Cert.KernelIdeal.Result.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  have hout : Cert.ReferenceIdeal.Read.val_main_v41 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      = outcomeArr m c := by
    rw [a0, a1, a2, a3, a4, a5, a6, a7]
    funext i
    obtain ⟨b, p, rfl⟩ : ∃ (b : Fin 128) (p : Fin 4096), i = ix2 b p := ⟨i 0, i 1, eq_ix2 i⟩
    exact Cert.ReferenceIdeal.Layer.outcome_eq _ _ _ _ _ _ _ _ b p
  refine ⟨(h c).1.trans ?_, (h c).2.1.trans ?_, (h c).2.2.1.trans ?_, (h c).2.2.2⟩
  · rw [Cert.ReferenceIdeal.Read.val_main_v41_eq]
    exact hout
  · rw [Cert.ReferenceIdeal.Read.val_main_v45_eq]
    unfold Cert.ReferenceIdeal.Read.val_main_v45 Cert.ReferenceIdeal.Read.val_main_v42 Cert.ReferenceIdeal.Read.val_main_v44
      Cert.ReferenceIdeal.Read.val_main_v43
    rw [hout, a8, a9]
    rfl
  · rw [Cert.ReferenceIdeal.Read.val_main_v40_eq, a0, a4, a5]
    funext i
    obtain ⟨b, p, rfl⟩ : ∃ (b : Fin 128) (p : Fin 4096), i = ix2 b p := ⟨i 0, i 1, eq_ix2 i⟩
    exact Cert.ReferenceIdeal.Layer.attn_eq _ _ _ b p

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
